-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S100000 : Shape := ⟨1, ![100000]⟩
abbrev S_ : Shape := ⟨0, ![]⟩
abbrev S128x128 : Shape := ⟨2, ![128, 128]⟩
abbrev S128 : Shape := ⟨1, ![128]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  reducesTo_S_S_d : S_.ReducesTo [] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_

variable [Facts]

def fn_part5 {F : FTy → Type} [FloatOps F] (main_v80 : IVec S_ 1) (main_v83 : IVec S_ 1) : IVec S_ 1 :=
  let main_v84 : IVec S_ 1 := andi main_v80 main_v83
  main_v84

def fn_part4 {F : FTy → Type} [FloatOps F] (main_arg3 : IVec S100000 32) (main_arg17 : FVec F S128 .f32) (main_v66 : IVec S_ 1) (main_v67 : FVec F S128 .f32) : IVec S_ 1 :=
  let main_cst_26 : FVec F S_ .f32 := constant S_ .f32 0x7F800000#32
  let main_v68 : FVec F S128 .f32 := broadcastInDim S128 ![] bcast_S_S128 main_cst_26
  let main_v69 : IVec S128 1 := cmpf .olt main_v67 main_v68
  let main_c_27 : IVec S_ 1 := constantI S_ 1 1#1
  let main_v70 : IVec S_ 1 := (fun x v => Host.reduce IntOp.andi x v reducesTo_S128_S_d0 h_S_) main_v69 main_c_27
  let main_v71 : IVec S_ 1 := andi main_v66 main_v70
  let main_v72 : FVec F S128 .f32 := Host.absf main_arg17
  let main_cst_28 : FVec F S_ .f32 := constant S_ .f32 0x7F800000#32
  let main_v73 : FVec F S128 .f32 := broadcastInDim S128 ![] bcast_S_S128 main_cst_28
  let main_v74 : IVec S128 1 := cmpf .olt main_v72 main_v73
  let main_c_29 : IVec S_ 1 := constantI S_ 1 1#1
  let main_v75 : IVec S_ 1 := (fun x v => Host.reduce IntOp.andi x v reducesTo_S128_S_d0 h_S_) main_v74 main_c_29
  let main_v76 : IVec S_ 1 := andi main_v71 main_v75
  let main_c_30 : IVec S_ 32 := constantI S_ 32 0#32
  let main_v77 : IVec S100000 32 := broadcastInDim S100000 ![] bcast_S_S100000 main_c_30
  let main_v78 : IVec S100000 1 := cmpi .sge main_arg3 main_v77
  let main_c_31 : IVec S_ 1 := constantI S_ 1 1#1
  let main_v79 : IVec S_ 1 := (fun x v => Host.reduce IntOp.andi x v reducesTo_S100000_S_d0 h_S_) main_v78 main_c_31
  let main_v80 : IVec S_ 1 := andi main_v76 main_v79
  let main_c_32 : IVec S_ 32 := constantI S_ 32 64#32
  let main_v81 : IVec S100000 32 := broadcastInDim S100000 ![] bcast_S_S100000 main_c_32
  let main_v82 : IVec S100000 1 := cmpi .slt main_arg3 main_v81
  let main_c_33 : IVec S_ 1 := constantI S_ 1 1#1
  let main_v83 : IVec S_ 1 := (fun x v => Host.reduce IntOp.andi x v reducesTo_S100000_S_d0 h_S_) main_v82 main_c_33
  fn_part5 (F := F) main_v80 main_v83

def fn_part3 {F : FTy → Type} [FloatOps F] (main_arg3 : IVec S100000 32) (main_arg13 : FVec F S128 .f32) (main_arg14 : FVec F S128 .f32) (main_arg15 : FVec F S128 .f32) (main_arg16 : FVec F S128 .f32) (main_arg17 : FVec F S128 .f32) (main_v46 : IVec S_ 1) (main_v49 : IVec S128x128 1) (main_c_19 : IVec S_ 1) : IVec S_ 1 :=
  let main_v50 : IVec S_ 1 := (fun x v => Host.reduce IntOp.andi x v reducesTo_S128x128_S_d0_1 h_S_) main_v49 main_c_19
  let main_v51 : IVec S_ 1 := andi main_v46 main_v50
  let main_v52 : FVec F S128 .f32 := Host.absf main_arg13
  let main_cst_20 : FVec F S_ .f32 := constant S_ .f32 0x7F800000#32
  let main_v53 : FVec F S128 .f32 := broadcastInDim S128 ![] bcast_S_S128 main_cst_20
  let main_v54 : IVec S128 1 := cmpf .olt main_v52 main_v53
  let main_c_21 : IVec S_ 1 := constantI S_ 1 1#1
  let main_v55 : IVec S_ 1 := (fun x v => Host.reduce IntOp.andi x v reducesTo_S128_S_d0 h_S_) main_v54 main_c_21
  let main_v56 : IVec S_ 1 := andi main_v51 main_v55
  let main_v57 : FVec F S128 .f32 := Host.absf main_arg14
  let main_cst_22 : FVec F S_ .f32 := constant S_ .f32 0x7F800000#32
  let main_v58 : FVec F S128 .f32 := broadcastInDim S128 ![] bcast_S_S128 main_cst_22
  let main_v59 : IVec S128 1 := cmpf .olt main_v57 main_v58
  let main_c_23 : IVec S_ 1 := constantI S_ 1 1#1
  let main_v60 : IVec S_ 1 := (fun x v => Host.reduce IntOp.andi x v reducesTo_S128_S_d0 h_S_) main_v59 main_c_23
  let main_v61 : IVec S_ 1 := andi main_v56 main_v60
  let main_v62 : FVec F S128 .f32 := Host.absf main_arg15
  let main_cst_24 : FVec F S_ .f32 := constant S_ .f32 0x7F800000#32
  let main_v63 : FVec F S128 .f32 := broadcastInDim S128 ![] bcast_S_S128 main_cst_24
  let main_v64 : IVec S128 1 := cmpf .olt main_v62 main_v63
  let main_c_25 : IVec S_ 1 := constantI S_ 1 1#1
  let main_v65 : IVec S_ 1 := (fun x v => Host.reduce IntOp.andi x v reducesTo_S128_S_d0 h_S_) main_v64 main_c_25
  let main_v66 : IVec S_ 1 := andi main_v61 main_v65
  let main_v67 : FVec F S128 .f32 := Host.absf main_arg16
  fn_part4 (F := F) main_arg3 main_arg17 main_v66 main_v67

def fn_part2 {F : FTy → Type} [FloatOps F] (main_arg3 : IVec S100000 32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v31 : IVec S_ 1) (main_v32 : FVec F S128 .f32) (main_cst_12 : FVec F S_ .f32) : IVec S_ 1 :=
  let main_v33 : FVec F S128 .f32 := broadcastInDim S128 ![] bcast_S_S128 main_cst_12
  let main_v34 : IVec S128 1 := cmpf .olt main_v32 main_v33
  let main_c_13 : IVec S_ 1 := constantI S_ 1 1#1
  let main_v35 : IVec S_ 1 := (fun x v => Host.reduce IntOp.andi x v reducesTo_S128_S_d0 h_S_) main_v34 main_c_13
  let main_v36 : IVec S_ 1 := andi main_v31 main_v35
  let main_v37 : FVec F S128x128 .f32 := Host.absf main_arg10
  let main_cst_14 : FVec F S_ .f32 := constant S_ .f32 0x7F800000#32
  let main_v38 : FVec F S128x128 .f32 := broadcastInDim S128x128 ![] bcast_S_S128x128 main_cst_14
  let main_v39 : IVec S128x128 1 := cmpf .olt main_v37 main_v38
  let main_c_15 : IVec S_ 1 := constantI S_ 1 1#1
  let main_v40 : IVec S_ 1 := (fun x v => Host.reduce IntOp.andi x v reducesTo_S128x128_S_d0_1 h_S_) main_v39 main_c_15
  let main_v41 : IVec S_ 1 := andi main_v36 main_v40
  let main_v42 : FVec F S128 .f32 := Host.absf main_arg11
  let main_cst_16 : FVec F S_ .f32 := constant S_ .f32 0x7F800000#32
  let main_v43 : FVec F S128 .f32 := broadcastInDim S128 ![] bcast_S_S128 main_cst_16
  let main_v44 : IVec S128 1 := cmpf .olt main_v42 main_v43
  let main_c_17 : IVec S_ 1 := constantI S_ 1 1#1
  let main_v45 : IVec S_ 1 := (fun x v => Host.reduce IntOp.andi x v reducesTo_S128_S_d0 h_S_) main_v44 main_c_17
  let main_v46 : IVec S_ 1 := andi main_v41 main_v45
  let main_v47 : FVec F S128x128 .f32 := Host.absf main_arg12
  let main_cst_18 : FVec F S_ .f32 := constant S_ .f32 0x7F800000#32
  let main_v48 : FVec F S128x128 .f32 := broadcastInDim S128x128 ![] bcast_S_S128x128 main_cst_18
  let main_v49 : IVec S128x128 1 := cmpf .olt main_v47 main_v48
  let main_c_19 : IVec S_ 1 := constantI S_ 1 1#1
  fn_part3 (F := F) main_arg3 main_arg13 main_arg14 main_arg15 main_arg16 main_arg17 main_v46 main_v49 main_c_19

def fn_part1 {F : FTy → Type} [FloatOps F] (main_arg3 : IVec S100000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v12 : IVec S_ 1) (main_v15 : IVec S_ 1) : IVec S_ 1 :=
  let main_v16 : IVec S_ 1 := andi main_v12 main_v15
  let main_v17 : FVec F S128x128 .f32 := Host.absf main_arg6
  let main_cst_6 : FVec F S_ .f32 := constant S_ .f32 0x7F800000#32
  let main_v18 : FVec F S128x128 .f32 := broadcastInDim S128x128 ![] bcast_S_S128x128 main_cst_6
  let main_v19 : IVec S128x128 1 := cmpf .olt main_v17 main_v18
  let main_c_7 : IVec S_ 1 := constantI S_ 1 1#1
  let main_v20 : IVec S_ 1 := (fun x v => Host.reduce IntOp.andi x v reducesTo_S128x128_S_d0_1 h_S_) main_v19 main_c_7
  let main_v21 : IVec S_ 1 := andi main_v16 main_v20
  let main_v22 : FVec F S128 .f32 := Host.absf main_arg7
  let main_cst_8 : FVec F S_ .f32 := constant S_ .f32 0x7F800000#32
  let main_v23 : FVec F S128 .f32 := broadcastInDim S128 ![] bcast_S_S128 main_cst_8
  let main_v24 : IVec S128 1 := cmpf .olt main_v22 main_v23
  let main_c_9 : IVec S_ 1 := constantI S_ 1 1#1
  let main_v25 : IVec S_ 1 := (fun x v => Host.reduce IntOp.andi x v reducesTo_S128_S_d0 h_S_) main_v24 main_c_9
  let main_v26 : IVec S_ 1 := andi main_v21 main_v25
  let main_v27 : FVec F S128x128 .f32 := Host.absf main_arg8
  let main_cst_10 : FVec F S_ .f32 := constant S_ .f32 0x7F800000#32
  let main_v28 : FVec F S128x128 .f32 := broadcastInDim S128x128 ![] bcast_S_S128x128 main_cst_10
  let main_v29 : IVec S128x128 1 := cmpf .olt main_v27 main_v28
  let main_c_11 : IVec S_ 1 := constantI S_ 1 1#1
  let main_v30 : IVec S_ 1 := (fun x v => Host.reduce IntOp.andi x v reducesTo_S128x128_S_d0_1 h_S_) main_v29 main_c_11
  let main_v31 : IVec S_ 1 := andi main_v26 main_v30
  let main_v32 : FVec F S128 .f32 := Host.absf main_arg9
  let main_cst_12 : FVec F S_ .f32 := constant S_ .f32 0x7F800000#32
  fn_part2 (F := F) main_arg3 main_arg10 main_arg11 main_arg12 main_arg13 main_arg14 main_arg15 main_arg16 main_arg17 main_v31 main_v32 main_cst_12

def fn {F : FTy → Type} [FloatOps F] (main_arg0 : FVec F S100000x128 .f32) (main_arg1 : IVec S2x1600000 32) (main_arg2 : FVec F S1600000x128 .f32) (main_arg3 : IVec S100000 32) (main_arg4 : FVec F S_ .f32) (main_arg5 : FVec F S_ .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S_ .f32 := Host.absf main_arg4
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg5
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_arg3 main_arg6 main_arg7 main_arg8 main_arg9 main_arg10 main_arg11 main_arg12 main_arg13 main_arg14 main_arg15 main_arg16 main_arg17 main_v12 main_v15
-- ==== Kernel.lean ====
abbrev S100000x128 : Shape := ⟨2, ![100000, 128]⟩
abbrev S2x1600000 : Shape := ⟨2, ![2, 1600000]⟩
abbrev S1600000x128 : Shape := ⟨2, ![1600000, 128]⟩
abbrev S100000 : Shape := ⟨1, ![100000]⟩
abbrev S_ : Shape := ⟨0, ![]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S64 : Shape := ⟨1, ![64]⟩
abbrev S100000x1 : Shape := ⟨2, ![100000, 1]⟩
abbrev S1x64 : Shape := ⟨2, ![1, 64]⟩
abbrev S100000x64 : Shape := ⟨2, ![100000, 64]⟩
abbrev S1600000x1 : Shape := ⟨2, ![1600000, 1]⟩
abbrev S5000x128 : Shape := ⟨2, ![5000, 128]⟩
abbrev S1x128 : Shape := ⟨2, ![1, 128]⟩
abbrev S64x1 : Shape := ⟨2, ![64, 1]⟩
abbrev S64x2 : Shape := ⟨2, ![64, 2]⟩
abbrev S5000x64 : Shape := ⟨2, ![5000, 64]⟩
abbrev S5000 : Shape := ⟨1, ![5000]⟩
abbrev S5000x1 : Shape := ⟨2, ![5000, 1]⟩

abbrev nBuf : Space → Nat
  | .hbm => 149
  | .vmem => 36
  | .smem => 0
  | _ => 0

abbrev hbmTy0_0 (i : Nat) : BufTy := match i % 128 with
  | 0 => ⟨S100000x128, .f32⟩
  | 1 => ⟨S2x1600000, .i32⟩
  | 2 => ⟨S1600000x128, .f32⟩
  | 3 => ⟨S100000, .i32⟩
  | 4 => ⟨S_, .f32⟩
  | 5 => ⟨S_, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S1x1600000, .i32⟩
  | 19 => ⟨S1600000, .i32⟩
  | 20 => ⟨S1x1600000, .i32⟩
  | 21 => ⟨S1600000, .i32⟩
  | 22 => ⟨S64, .i32⟩
  | 23 => ⟨S100000x1, .i32⟩
  | 24 => ⟨S1x64, .i32⟩
  | 25 => ⟨S100000x64, .i32⟩
  | 26 => ⟨S100000x64, .i32⟩
  | 27 => ⟨S100000x64, .i1⟩
  | 28 => ⟨S100000x64, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S1600000x128, .f32⟩
  | 39 => ⟨S_, .f32⟩
  | 40 => ⟨S1600000x128, .f32⟩
  | 41 => ⟨S1600000x128, .f32⟩
  | 42 => ⟨S_, .f32⟩
  | 43 => ⟨S100000x128, .f32⟩
  | 44 => ⟨S1600000x1, .i32⟩
  | 45 => ⟨S100000x128, .f32⟩
  | 46 => ⟨S_, .f32⟩
  | 47 => ⟨S_, .f32⟩
  | 48 => ⟨S100000x128, .f32⟩
  | 49 => ⟨S100000x128, .f32⟩
  | 50 => ⟨S100000x128, .f32⟩
  | 51 => ⟨S100000x128, .f32⟩
  | 52 => ⟨S_, .f32⟩
  | 53 => ⟨S100000, .f32⟩
  | 54 => ⟨S100000x128, .f32⟩
  | 55 => ⟨S_, .f32⟩
  | 56 => ⟨S100000, .f32⟩
  | 57 => ⟨S_, .f32⟩
  | 58 => ⟨S100000, .f32⟩
  | 59 => ⟨S_, .f32⟩
  | 60 => ⟨S64, .f32⟩
  | 61 => ⟨S100000x1, .i32⟩
  | 62 => ⟨S64, .f32⟩
  | 63 => ⟨S_, .f32⟩
  | 64 => ⟨S64, .f32⟩
  | 65 => ⟨S64, .f32⟩
  | 66 => ⟨S_, .f32⟩
  | 67 => ⟨S64, .f32⟩
  | 68 => ⟨S64, .f32⟩
  | 69 => ⟨S_, .f32⟩
  | 70 => ⟨S64, .f32⟩
  | 71 => ⟨S100000x1, .i32⟩
  | 72 => ⟨S64, .f32⟩
  | 73 => ⟨S_, .f32⟩
  | 74 => ⟨S64, .f32⟩
  | 75 => ⟨S100000x1, .i32⟩
  | 76 => ⟨S64, .f32⟩
  | 77 => ⟨S64, .f32⟩
  | 78 => ⟨S64, .f32⟩
  | 79 => ⟨S64, .f32⟩
  | 80 => ⟨S64, .f32⟩
  | 81 => ⟨S_, .f32⟩
  | 82 => ⟨S64, .f32⟩
  | 83 => ⟨S64, .f32⟩
  | 84 => ⟨S64, .f32⟩
  | 85 => ⟨S64x1, .f32⟩
  | 86 => ⟨S64x1, .f32⟩
  | 87 => ⟨S64x2, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S1600000x128, .f32⟩
  | 99 => ⟨S_, .f32⟩
  | 100 => ⟨S1600000x128, .f32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S_, .f32⟩
  | 107 => ⟨S_, .f32⟩
  | 108 => ⟨S100000x128, .f32⟩
  | 109 => ⟨S100000x128, .f32⟩
  | 110 => ⟨S100000x128, .f32⟩
  | 111 => ⟨S100000x128, .f32⟩
  | 112 => ⟨S_, .f32⟩
  | 113 => ⟨S100000, .f32⟩
  | 114 => ⟨S100000x128, .f32⟩
  | 115 => ⟨S_, .f32⟩
  | 116 => ⟨S100000, .f32⟩
  | 117 => ⟨S_, .f32⟩
  | 118 => ⟨S100000, .f32⟩
  | 119 => ⟨S_, .f32⟩
  | 120 => ⟨S64, .f32⟩
  | 121 => ⟨S100000x1, .i32⟩
  | 122 => ⟨S64, .f32⟩
  | 123 => ⟨S_, .f32⟩
  | 124 => ⟨S64, .f32⟩
  | 125 => ⟨S64, .f32⟩
  | 126 => ⟨S_, .f32⟩
  | 127 => ⟨S64, .f32⟩
  | _ => ⟨S100000x128, .f32⟩

abbrev hbmTy0_1 (i : Nat) : BufTy := match i % 128 with
  | 0 => ⟨S64, .f32⟩
  | 1 => ⟨S_, .f32⟩
  | 2 => ⟨S64, .f32⟩
  | 3 => ⟨S100000x1, .i32⟩
  | 4 => ⟨S64, .f32⟩
  | 5 => ⟨S_, .f32⟩
  | 6 => ⟨S64, .f32⟩
  | 7 => ⟨S100000x1, .i32⟩
  | 8 => ⟨S64, .f32⟩
  | 9 => ⟨S64, .f32⟩
  | 10 => ⟨S64, .f32⟩
  | 11 => ⟨S64, .f32⟩
  | 12 => ⟨S64, .f32⟩
  | 13 => ⟨S_, .f32⟩
  | 14 => ⟨S64, .f32⟩
  | 15 => ⟨S64, .f32⟩
  | 16 => ⟨S64, .f32⟩
  | 17 => ⟨S64x1, .f32⟩
  | 18 => ⟨S64x1, .f32⟩
  | 19 => ⟨S64x2, .f32⟩
  | 20 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x64, .f32⟩
  | .local _ .vmem, ⟨11, _⟩ => ⟨S5000x64, .f32⟩
  | .local _ .vmem, ⟨12, _⟩ => ⟨S64x2, .f32⟩
  | .local _ .vmem, ⟨13, _⟩ => ⟨S128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x64, .f32⟩
  | .local _ .vmem, ⟨28, _⟩ => ⟨S5000x64, .f32⟩
  | .local _ .vmem, ⟨29, _⟩ => ⟨S64x2, .f32⟩
  | .local _ .vmem, ⟨30, _⟩ => ⟨S128, .f32⟩
  | .local _ .vmem, ⟨31, _⟩ => ⟨S128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_cst_8 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_c_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_call1_cst : Ref sig .tc := ⟨.hbm, 99, rfl⟩
abbrev main_call1_v0 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_14 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_15 : Ref sig .tc := ⟨.hbm, 112, rfl⟩
abbrev main_v73 : Ref sig .tc := ⟨.hbm, 113, rfl⟩
abbrev main_v74 : Ref sig .tc := ⟨.hbm, 114, rfl⟩
abbrev main_cst_16 : Ref sig .tc := ⟨.hbm, 115, rfl⟩
abbrev main_v75 : Ref sig .tc := ⟨.hbm, 116, rfl⟩
abbrev main_cst_17 : Ref sig .tc := ⟨.hbm, 117, rfl⟩
abbrev main_v76 : Ref sig .tc := ⟨.hbm, 118, rfl⟩
abbrev main_cst_18 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_19 : Ref sig .tc := ⟨.hbm, 123, rfl⟩
abbrev main_v80 : Ref sig .tc := ⟨.hbm, 124, rfl⟩
abbrev main_v81 : Ref sig .tc := ⟨.hbm, 125, rfl⟩
abbrev main_cst_20 : Ref sig .tc := ⟨.hbm, 126, rfl⟩
abbrev main_v82 : Ref sig .tc := ⟨.hbm, 127, rfl⟩
abbrev main_v83 : Ref sig .tc := ⟨.hbm, 128, rfl⟩
abbrev main_cst_21 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_22 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_23 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reducesTo_S100000x128_S100000_d1 : S100000x128.ReducesTo [1] S100000
  h_S_ : 0 < S_.numel
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  slices_S64x2_o0_0_S64x1 : S64x2.Slices ![0, 0] S64x1
  shapeCasts_S64x1_S64 : S64x1.ShapeCasts S64
  slices_S64x2_o0_1_S64x1 : S64x2.Slices ![0, 1] S64x1
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x128 : S5000x1.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x2.size a ≤ S64x2.size a
  hwx1_2 : ∀ i : grid1.Coords, EltTy.bits .f32 = 32 ∨ (Rect.block (s := S64x2) S64x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x2.size a ≤ S64x2.size a
  hwx3_2 : ∀ i : grid3.Coords, EltTy.bits .f32 = 32 ∨ (Rect.block (s := S64x2) S64x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S64x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v71) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v99) S64x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg0) S5000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v100) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S100000 : Shape := ⟨1, ![100000]⟩
abbrev S_ : Shape := ⟨0, ![]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1600000x1 : Shape := ⟨2, ![1600000, 1]⟩
abbrev S1x128 : Shape := ⟨2, ![1, 128]⟩
abbrev S64 : Shape := ⟨1, ![64]⟩
abbrev S100000x1 : Shape := ⟨2, ![100000, 1]⟩

abbrev nBuf : Space → Nat
  | .hbm => 228
  | .vmem => 0
  | .smem => 0
  | _ => 0

abbrev hbmTy0_0 (i : Nat) : BufTy := match i % 128 with
  | 0 => ⟨S100000x128, .f32⟩
  | 1 => ⟨S2x1600000, .i32⟩
  | 2 => ⟨S1600000x128, .f32⟩
  | 3 => ⟨S100000, .i32⟩
  | 4 => ⟨S_, .f32⟩
  | 5 => ⟨S_, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S1600000x128, .f32⟩
  | 32 => ⟨S_, .f32⟩
  | 33 => ⟨S1600000x128, .f32⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S_, .f32⟩
  | 40 => ⟨S_, .f32⟩
  | 41 => ⟨S100000x128, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000, .f32⟩
  | 57 => ⟨S_, .f32⟩
  | 58 => ⟨S64, .f32⟩
  | 59 => ⟨S100000x1, .i32⟩
  | 60 => ⟨S64, .f32⟩
  | 61 => ⟨S_, .f32⟩
  | 62 => ⟨S64, .f32⟩
  | 63 => ⟨S64, .f32⟩
  | 64 => ⟨S_, .f32⟩
  | 65 => ⟨S64, .f32⟩
  | 66 => ⟨S64, .f32⟩
  | 67 => ⟨S_, .f32⟩
  | 68 => ⟨S100000, .f32⟩
  | 69 => ⟨S_, .f32⟩
  | 70 => ⟨S64, .f32⟩
  | 71 => ⟨S100000x1, .i32⟩
  | 72 => ⟨S64, .f32⟩
  | 73 => ⟨S64, .f32⟩
  | 74 => ⟨S100000x128, .f32⟩
  | 75 => ⟨S_, .f32⟩
  | 76 => ⟨S100000, .f32⟩
  | 77 => ⟨S_, .f32⟩
  | 78 => ⟨S64, .f32⟩
  | 79 => ⟨S100000x1, .i32⟩
  | 80 => ⟨S64, .f32⟩
  | 81 => ⟨S64, .f32⟩
  | 82 => ⟨S64, .f32⟩
  | 83 => ⟨S64, .f32⟩
  | 84 => ⟨S_, .f32⟩
  | 85 => ⟨S64, .f32⟩
  | 86 => ⟨S64, .f32⟩
  | 87 => ⟨S64, .f32⟩
  | 88 => ⟨S_, .i32⟩
  | 89 => ⟨S100000, .i32⟩
  | 90 => ⟨S100000, .i1⟩
  | 91 => ⟨S_, .i32⟩
  | 92 => ⟨S100000, .i32⟩
  | 93 => ⟨S100000, .i32⟩
  | 94 => ⟨S100000, .i32⟩
  | 95 => ⟨S100000x1, .i32⟩
  | 96 => ⟨S100000, .f32⟩
  | 97 => ⟨S100000x1, .f32⟩
  | 98 => ⟨S100000x128, .f32⟩
  | 99 => ⟨S100000x128, .f32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S100000, .f32⟩
  | 109 => ⟨S100000x1, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S1x1600000, .i32⟩
  | 122 => ⟨S1600000, .i32⟩
  | 123 => ⟨S1x1600000, .i32⟩
  | 124 => ⟨S1600000, .i32⟩
  | 125 => ⟨S_, .i32⟩
  | 126 => ⟨S1600000, .i32⟩
  | 127 => ⟨S1600000, .i1⟩
  | _ => ⟨S100000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .f32⟩
  | 6 => ⟨S1600000x128, .f32⟩
  | 7 => ⟨S_, .f32⟩
  | 8 => ⟨S1600000x128, .f32⟩
  | 9 => ⟨S1600000x128, .f32⟩
  | 10 => ⟨S_, .f32⟩
  | 11 => ⟨S100000x128, .f32⟩
  | 12 => ⟨S1600000x1, .i32⟩
  | 13 => ⟨S100000x128, .f32⟩
  | 14 => ⟨S_, .f32⟩
  | 15 => ⟨S_, .f32⟩
  | 16 => ⟨S100000x128, .f32⟩
  | 17 => ⟨S100000x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000, .f32⟩
  | 32 => ⟨S_, .f32⟩
  | 33 => ⟨S64, .f32⟩
  | 34 => ⟨S100000x1, .i32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S_, .f32⟩
  | 43 => ⟨S100000, .f32⟩
  | 44 => ⟨S_, .f32⟩
  | 45 => ⟨S64, .f32⟩
  | 46 => ⟨S100000x1, .i32⟩
  | 47 => ⟨S64, .f32⟩
  | 48 => ⟨S64, .f32⟩
  | 49 => ⟨S100000x128, .f32⟩
  | 50 => ⟨S_, .f32⟩
  | 51 => ⟨S100000, .f32⟩
  | 52 => ⟨S_, .f32⟩
  | 53 => ⟨S64, .f32⟩
  | 54 => ⟨S100000x1, .i32⟩
  | 55 => ⟨S64, .f32⟩
  | 56 => ⟨S64, .f32⟩
  | 57 => ⟨S64, .f32⟩
  | 58 => ⟨S64, .f32⟩
  | 59 => ⟨S_, .f32⟩
  | 60 => ⟨S64, .f32⟩
  | 61 => ⟨S64, .f32⟩
  | 62 => ⟨S64, .f32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S100000, .f32⟩
  | 72 => ⟨S100000x1, .f32⟩
  | 73 => ⟨S100000x128, .f32⟩
  | 74 => ⟨S100000x128, .f32⟩
  | 75 => ⟨S_, .i32⟩
  | 76 => ⟨S100000, .i32⟩
  | 77 => ⟨S100000, .i1⟩
  | 78 => ⟨S_, .i32⟩
  | 79 => ⟨S100000, .i32⟩
  | 80 => ⟨S100000, .i32⟩
  | 81 => ⟨S100000, .i32⟩
  | 82 => ⟨S100000x1, .i32⟩
  | 83 => ⟨S100000, .f32⟩
  | 84 => ⟨S100000x1, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .f32⟩
  | 98 => ⟨S100000x128, .f32⟩
  | 99 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_call0_cst : Ref sig .tc := ⟨.hbm, 32, rfl⟩
abbrev main_call0_v0 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call1_cst : Ref sig .tc := ⟨.hbm, 48, rfl⟩
abbrev main_call1_v0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_2 : Ref sig .tc := ⟨.hbm, 55, rfl⟩
abbrev main_v29 : Ref sig .tc := ⟨.hbm, 56, rfl⟩
abbrev main_cst_3 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_4 : Ref sig .tc := ⟨.hbm, 61, rfl⟩
abbrev main_v33 : Ref sig .tc := ⟨.hbm, 62, rfl⟩
abbrev main_v34 : Ref sig .tc := ⟨.hbm, 63, rfl⟩
abbrev main_cst_5 : Ref sig .tc := ⟨.hbm, 64, rfl⟩
abbrev main_v35 : Ref sig .tc := ⟨.hbm, 65, rfl⟩
abbrev main_v36 : Ref sig .tc := ⟨.hbm, 66, rfl⟩
abbrev main_cst_6 : Ref sig .tc := ⟨.hbm, 67, rfl⟩
abbrev main_v37 : Ref sig .tc := ⟨.hbm, 68, rfl⟩
abbrev main_cst_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_v43 : Ref sig .tc := ⟨.hbm, 76, rfl⟩
abbrev main_cst_9 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_10 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_11 : Ref sig .tc := ⟨.hbm, 88, rfl⟩
abbrev main_v53 : Ref sig .tc := ⟨.hbm, 89, rfl⟩
abbrev main_v54 : Ref sig .tc := ⟨.hbm, 90, rfl⟩
abbrev main_c_12 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_13 : Ref sig .tc := ⟨.hbm, 100, rfl⟩
abbrev main_v63 : Ref sig .tc := ⟨.hbm, 101, rfl⟩
abbrev main_v64 : Ref sig .tc := ⟨.hbm, 102, rfl⟩
abbrev main_c_14 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call2_cst : Ref sig .tc := ⟨.hbm, 118, rfl⟩
abbrev main_call2_v0 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_15 : Ref sig .tc := ⟨.hbm, 125, rfl⟩
abbrev main_v84 : Ref sig .tc := ⟨.hbm, 126, rfl⟩
abbrev main_v85 : Ref sig .tc := ⟨.hbm, 127, rfl⟩
abbrev main_c_16 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_call3_cst : Ref sig .tc := ⟨.hbm, 135, rfl⟩
abbrev main_call3_v0 : Ref sig .tc := ⟨.hbm, 136, rfl⟩
abbrev main_v92 : Ref sig .tc := ⟨.hbm, 137, rfl⟩
abbrev main_cst_17 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_18 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_call4_cst : Ref sig .tc := ⟨.hbm, 151, rfl⟩
abbrev main_call4_v0 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_19 : Ref sig .tc := ⟨.hbm, 158, rfl⟩
abbrev main_v109 : Ref sig .tc := ⟨.hbm, 159, rfl⟩
abbrev main_cst_20 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_21 : Ref sig .tc := ⟨.hbm, 164, rfl⟩
abbrev main_v113 : Ref sig .tc := ⟨.hbm, 165, rfl⟩
abbrev main_v114 : Ref sig .tc := ⟨.hbm, 166, rfl⟩
abbrev main_cst_22 : Ref sig .tc := ⟨.hbm, 167, rfl⟩
abbrev main_v115 : Ref sig .tc := ⟨.hbm, 168, rfl⟩
abbrev main_v116 : Ref sig .tc := ⟨.hbm, 169, rfl⟩
abbrev main_cst_23 : Ref sig .tc := ⟨.hbm, 170, rfl⟩
abbrev main_v117 : Ref sig .tc := ⟨.hbm, 171, rfl⟩
abbrev main_cst_24 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_25 : Ref sig .tc := ⟨.hbm, 178, rfl⟩
abbrev main_v123 : Ref sig .tc := ⟨.hbm, 179, rfl⟩
abbrev main_cst_26 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_cst_27 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_c_28 : Ref sig .tc := ⟨.hbm, 191, rfl⟩
abbrev main_v133 : Ref sig .tc := ⟨.hbm, 192, rfl⟩
abbrev main_v134 : Ref sig .tc := ⟨.hbm, 193, rfl⟩
abbrev main_c_29 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_c_30 : Ref sig .tc := ⟨.hbm, 203, rfl⟩
abbrev main_v143 : Ref sig .tc := ⟨.hbm, 204, rfl⟩
abbrev main_v144 : Ref sig .tc := ⟨.hbm, 205, rfl⟩
abbrev main_c_31 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_cst_32 : Ref sig .tc := ⟨.hbm, 222, rfl⟩
abbrev main_v160 : Ref sig .tc := ⟨.hbm, 223, rfl⟩
abbrev main_v161 : Ref sig .tc := ⟨.hbm, 224, rfl⟩
abbrev main_call5_cst : Ref sig .tc := ⟨.hbm, 225, rfl⟩
abbrev main_call5_v0 : Ref sig .tc := ⟨.hbm, 226, rfl⟩
abbrev main_v162 : Ref sig .tc := ⟨.hbm, 227, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  reducesTo_S100000x128_S100000_d1 : S100000x128.ReducesTo [1] S100000
  h_S_ : 0 < S_.numel
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64_S100000x1_S100000_n_0_0_1_wf : ScatterDims.WF S64 S100000x1 S100000 [] [0] [0] 1
  gather_S64_S100000x1_S100000_n_0_n_n_0_1_1_wf : GatherDims.WF S64 S100000x1 S100000 [] [0] [] [0] [] 1 ![1]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def gather_S64_S100000x1_S100000_n_0_n_n_0_1_1 : GatherDims S64 S100000x1 S100000 where
  offsetDims := []
  collapsedSliceDims := [0]
  operandBatchingDims := []
  startIndicesBatchingDims := []
  startIndexMap := [0]
  indexVectorDim := 1
  sliceSizes := ![1]
  wf := gather_S64_S100000x1_S100000_n_0_n_n_0_1_1_wf

class Facts : Prop extends Facts₀ where

variable [Facts]
-- ==== Proof.StagesK.lean ====
/-
  The host-side stages of the program, each as one function of its operands: gathering the source rows of the
  edges, adding the edge features, relu, summing into the target rows; the per-graph count, mean and reciprocal
  deviation; the membership matrix and the 64×2 table of statistics.
-/
import proofs.«400410_j4037269259025_1_alg».proof.Proof.Gen.KernelIdeal

noncomputable section

namespace Cert.KernelIdeal.Stage

open Cert.KernelIdeal Cert.KernelIdeal.Gen Idealize.ShloMosaic

variable {F : FTy → Type} [FloatOps F]

/-- The first row of the edge list (the source node of every edge), flat. -/
def src (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The second row of the edge list (the target node of every edge), flat. -/
def dst (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The source indices with a negative one moved up by the number of nodes, as a column of start indices. -/
def srcCol (ei : (⟨S2x1600000, .i32⟩ : BufTy).Contents (Elt F)) : (⟨S1600000x1, .i32⟩ : BufTy).Contents (Elt F) :=
  broadcastInDim S1600000x1 ![0] bcast_S1600000_S1600000x1_0
    (select (cmpi .slt (src (F := F) ei) (broadcastInDim S1600000 ![] bcast_S_S1600000 (constantI S_ 32 0#32)))
      (addi (src (F := F) ei) (broadcastInDim S1600000 ![] bcast_S_S1600000 (constantI S_ 32 100000#32))) (src (F := F) ei))

/-- The message of every edge: relu (row of x at the source + the edge's features). -/
def msg (x : (⟨S100000x128, .f32⟩ : BufTy).Contents (Elt F)) (ei : (⟨S2x1600000, .i32⟩ : BufTy).Contents (Elt F))
    (ea : (⟨S1600000x128, .f32⟩ : BufTy).Contents (Elt F)) : (⟨S1600000x128, .f32⟩ : BufTy).Contents (Elt F) :=
  maximumf (addf (Host.gather gather_S100000x128_S1600000x1_S1600000x128_1_0_n_n_0_1_1128 x (srcCol (F := F) ei)) ea)
    (broadcastInDim S1600000x128 ![] bcast_S_S1600000x128 (constant S_ .f32 0x00000000#32))

/-- The messages summed into their target rows. -/
def agg (x : (⟨S100000x128, .f32⟩ : BufTy).Contents (Elt F)) (ei : (⟨S2x1600000, .i32⟩ : BufTy).Contents (Elt F))
    (ea : (⟨S1600000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dst (F := F) ei)) (msg x ei ea)

/-- What the dense stage is applied to: (1 + eps) · x + the summed messages. -/
def pre (x : (⟨S100000x128, .f32⟩ : BufTy).Contents (Elt F)) (ei : (⟨S2x1600000, .i32⟩ : BufTy).Contents (Elt F))
    (ea : (⟨S1600000x128, .f32⟩ : BufTy).Contents (Elt F)) (eps : (⟨S_, .f32⟩ : BufTy).Contents (Elt F)) :
    (⟨S100000x128, .f32⟩ : BufTy).Contents (Elt F) :=
  addf (mulf (broadcastInDim S100000x128 ![] bcast_S_S100000x128 (addf (constant S_ .f32 0x3F800000#32) eps)) x) (agg x ei ea)

/-- A per-node quantity summed over the nodes of each graph. -/
def perGraph (v : (⟨S100000, .f32⟩ : BufTy).Contents (Elt F)) (n2g : (⟨S100000, .i32⟩ : BufTy).Contents (Elt F)) :
    (⟨S64, .f32⟩ : BufTy).Contents (Elt F) :=
  Host.scatterAdd scatter_S64_S100000x1_S100000_n_0_0_1 (broadcastInDim S64 ![] bcast_S_S64 (constant S_ .f32 0x00000000#32))
    (broadcastInDim S100000x1 ![0] bcast_S100000_S100000x1_0 n2g) v

/-- The number of entries of each graph: its node count times 128, at least 1. -/
def cnt (n2g : (⟨S100000, .i32⟩ : BufTy).Contents (Elt F)) : (⟨S64, .f32⟩ : BufTy).Contents (Elt F) :=
  maximumf (mulf (perGraph (broadcastInDim S100000 ![] bcast_S_S100000 (constant S_ .f32 0x3F800000#32)) n2g)
      (broadcastInDim S64 ![] bcast_S_S64 (constant S_ .f32 0x43000000#32)))
    (broadcastInDim S64 ![] bcast_S_S64 (constant S_ .f32 0x3F800000#32))

/-- The mean of each graph's entries. -/
def mean (g : (⟨S100000x128, .f32⟩ : BufTy).Contents (Elt F)) (n2g : (⟨S100000, .i32⟩ : BufTy).Contents (Elt F)) :
    (⟨S64, .f32⟩ : BufTy).Contents (Elt F) :=
  Host.divf (perGraph (Host.reduceAdd g (constant S_ .f32 0x00000000#32) reducesTo_S100000x128_S100000_d1 h_S_) n2g) (cnt (F := F) n2g)

/-- The reciprocal square root of each graph's variance plus the constant. -/
def inv (g : (⟨S100000x128, .f32⟩ : BufTy).Contents (Elt F)) (n2g : (⟨S100000, .i32⟩ : BufTy).Contents (Elt F)) :
    (⟨S64, .f32⟩ : BufTy).Contents (Elt F) :=
  Host.rsqrt (addf (subf (Host.divf (perGraph (Host.reduceAdd (mulf g g) (constant S_ .f32 0x00000000#32) reducesTo_S100000x128_S100000_d1 h_S_) n2g) (cnt (F := F) n2g))
      (mulf (mean g n2g) (mean g n2g))) (broadcastInDim S64 ![] bcast_S_S64 (constant S_ .f32 0x3727C5AC#32)))

/-- The membership matrix: entry (n, q) is 1 when node n's graph id is q, else 0. -/
def onehot (n2g : (⟨S100000, .i32⟩ : BufTy).Contents (Elt F)) : (⟨S100000x64, .f32⟩ : BufTy).Contents (Elt F) :=
  uitofp .f32 (cmpi .eq
    (broadcastInDim S100000x64 ![0, 1] bcast_S100000x1_S100000x64_0_1 (broadcastInDim S100000x1 ![0] bcast_S100000_S100000x1_0 n2g))
    (broadcastInDim S100000x64 ![0, 1] bcast_S1x64_S100000x64_0_1 (broadcastInDim S1x64 ![1] bcast_S64_S1x64_1 (iotaInDim S64 32 0))))

/-- The 64×2 table: column 0 the means, column 1 the reciprocal deviations. -/
def table (g : (⟨S100000x128, .f32⟩ : BufTy).Contents (Elt F)) (n2g : (⟨S100000, .i32⟩ : BufTy).Contents (Elt F)) :
    (⟨S64x2, .f32⟩ : BufTy).Contents (Elt F) :=
  concatenate S64x2 1 [⟨S64x1, broadcastInDim S64x1 ![0] bcast_S64_S64x1_0 (mean g n2g)⟩,
    ⟨S64x1, broadcastInDim S64x1 ![0] bcast_S64_S64x1_0 (inv g n2g)⟩] concatenates_S64x1_S64x1_S64x2_d1

end Cert.KernelIdeal.Stage

end
-- ==== Proof.Spec.lean ====
/-
  What each stage of the network computes, as plain functions on the extended reals.
  A node n has a feature row of 128 entries. The dense stage maps every row h[n,·] to
  relu (h[n,·] · W₁ + b₁) · W₂ + b₂. The normalisation stage looks a node's two statistics up through
  its row of the membership matrix oh (entry (n,q) is 1 when node n belongs to graph q, else 0) as
  ∑_q oh[n,q] · tab[q,col], subtracts the first from the entry, multiplies by the second, then by
  γ[c], and adds β[c].
-/
import Idealize.ShloMosaic.PureOps.Ideal
import Idealize.ShloMosaic.Lib.ValueIdx

noncomputable section

open scoped BigOperators

namespace Cert.Spec

open Idealize.ShloMosaic Idealize.ShloMosaic.ValueIdx

abbrev Nodes : Shape := ⟨2, ![100000, 128]⟩
abbrev Mat : Shape := ⟨2, ![128, 128]⟩
abbrev Row : Shape := ⟨1, ![128]⟩
abbrev Hot : Shape := ⟨2, ![100000, 64]⟩
abbrev Tab : Shape := ⟨2, ![64, 2]⟩

/-- The hidden layer of node n at unit k: relu (∑_j h[n,j] · W₁[j,k] + b₁[k]). -/
def hidden (h : Nodes.Idx → EReal) (W1 : Mat.Idx → EReal) (b1 : Row.Idx → EReal) (n : Fin 100000) (k : Fin 128) : EReal :=
  max ((∑ j : Fin 128, h (ix2 n j) * W1 (ix2 j k)) + b1 (ix1 k)) 0

/-- The dense stage at node n, feature c: ∑_k hidden[n,k] · W₂[k,c] + b₂[c]. -/
def mlpAt (h : Nodes.Idx → EReal) (W1 : Mat.Idx → EReal) (b1 : Row.Idx → EReal) (W2 : Mat.Idx → EReal)
    (b2 : Row.Idx → EReal) (n : Fin 100000) (c : Fin 128) : EReal :=
  (∑ k : Fin 128, hidden h W1 b1 n k * W2 (ix2 k c)) + b2 (ix1 c)

/-- The dense stage on the whole node array. -/
def mlp (h : Nodes.Idx → EReal) (W1 : Mat.Idx → EReal) (b1 : Row.Idx → EReal) (W2 : Mat.Idx → EReal)
    (b2 : Row.Idx → EReal) : Nodes.Idx → EReal :=
  fun i => mlpAt h W1 b1 W2 b2 (i 0) (i 1)

/-- Node n's statistic number col, looked up through its membership row: ∑_q oh[n,q] · tab[q,col]. -/
def pick (oh : Hot.Idx → EReal) (tab : Tab.Idx → EReal) (col : Fin 2) (n : Fin 100000) : EReal :=
  ∑ q : Fin 64, oh (ix2 n q) * tab (ix2 q col)

/-- The normalised, scaled and shifted entry (n,c): (g[n,c] − pick 0) · pick 1 · γ[c] + β[c]. -/
def lnAt (g : Nodes.Idx → EReal) (oh : Hot.Idx → EReal) (tab : Tab.Idx → EReal) (γ β : Row.Idx → EReal)
    (n : Fin 100000) (c : Fin 128) : EReal :=
  (g (ix2 n c) - pick oh tab 0 n) * pick oh tab 1 n * γ (ix1 c) + β (ix1 c)

/-- Normalisation followed by relu, on the whole node array. -/
def lnRelu (g : Nodes.Idx → EReal) (oh : Hot.Idx → EReal) (tab : Tab.Idx → EReal) (γ β : Row.Idx → EReal) :
    Nodes.Idx → EReal :=
  fun i => max (lnAt g oh tab γ β (i 0) (i 1)) 0

/-- Normalisation, the residual average with res (the sum times the constant one half, kept as its
    binary word), then relu. -/
def lnResRelu (g : Nodes.Idx → EReal) (oh : Hot.Idx → EReal) (tab : Tab.Idx → EReal) (γ β : Row.Idx → EReal)
    (res : Nodes.Idx → EReal) : Nodes.Idx → EReal :=
  fun i => max ((lnAt g oh tab γ β (i 0) (i 1) + res (ix2 (i 0) (i 1))) * Ideal.ofBits .f32 0x3F000000#32) 0

end Cert.Spec

end
-- ==== Proof.Region0.lean ====
/-
  The first dense stage as the pipeline leaves it: point t of the grid stages rows 5000·t … 5000·t+4999 of the
  node array, the body computes relu (rows · W₁ + b₁) · W₂ + b₂ on them (the format changes before the two
  matrix products are the identity on the extended reals), and writes the block back; every row is in exactly
  one block, so the output array ends holding the dense stage of the whole input array.

  In order: the matrix product into a zero accumulator read at one entry as the sum over the contracted
  coordinate; the body's result at one entry of the staged block; each window's block at a point as entries of
  its array (the row windows at rows 5000·t + p, the weight and bias windows whole); what a point writes back
  as a block of the dense stage; the blocks cover the array.
-/
import proofs.«400410_j4037269259025_1_alg».proof.Proof.Gen.KernelIdeal.Frame
import proofs.«400410_j4037269259025_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## The matrix product at an index -/

/-- Row coordinate of the left operand's index: the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Column coordinate of the left operand's index: the contraction coordinate. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Row coordinate of the right operand's index: the contraction coordinate. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Column coordinate of the right operand's index: the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times a square matrix into the zero accumulator, at entry (p, q): ∑_k l[p,k] · r[k,q]. -/
theorem matmul_at {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A row of 128 entries laid over every row of the block, at entry (p, q): the row's entry q. -/
theorem bias_at (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-! ## The body's arithmetic at an index -/

/-- The hidden layer of the staged rows, at row p and unit k: relu (∑_j x[p,j] · W₁[j,k] + b₁[k]). -/
theorem hidden_at (x0 : Vec Ideal S5000x128 .f32) (w1 : Vec Ideal S128x128 .f32) (b1 : Vec Ideal S128 .f32) (p : Fin 5000) (k : Fin 128) :
    maximumf (addf (matmul dot_S5000x128_S128x128_S5000x128_1_0_0_1_n_n none
          (truncf .bf16 (shapeCast S5000x128 x0 shapeCasts_S5000x128_S5000x128) bitsLt_bf16_f32) (truncf .bf16 w1 bitsLt_bf16_f32)
          (constant (F := Ideal) S5000x128 .f32 0x00000000#32))
        (broadcastTo S5000x128 (shapeCast S1x128 b1 shapeCasts_S128_S1x128) broadcasts_S1x128_S5000x128))
      (broadcast S5000x128 (Scalar.ofBits (F := Ideal) .f32 0x00000000#32)) (ix2 p k)
      = max ((∑ j : Fin 128, x0 (ix2 p j) * w1 (ix2 j k)) + b1 (ix1 k)) 0 := by
  rw [maximumf_apply, addf_apply, matmul_at, bias_at, broadcast_apply, shapeCast_self]
  show max _ (Ideal.ofBits .f32 0x00000000#32) = _
  rw [Ideal.ofBits_zero_f32]
  rfl

/-- The body's result on the staged rows, at row p and feature q:
    ∑_k relu (∑_j x[p,j] · W₁[j,k] + b₁[k]) · W₂[k,q] + b₂[q]. -/
theorem pay_at (x0 : Vec Ideal S5000x128 .f32) (w1 : Vec Ideal S128x128 .f32) (b1 : Vec Ideal S128 .f32)
    (w2 : Vec Ideal S128x128 .f32) (b2 : Vec Ideal S128 .f32) (p : Fin 5000) (q : Fin 128) :
    k0_pay1 (F := Ideal) x0 w1 b1 w2 b2 (ix2 p q)
      = (∑ k : Fin 128, max ((∑ j : Fin 128, x0 (ix2 p j) * w1 (ix2 j k)) + b1 (ix1 k)) 0 * w2 (ix2 k q)) + b2 (ix1 q) := by
  unfold k0_pay1
  rw [addf_apply, matmul_at, bias_at]
  refine congrArg (· + b2 (ix1 q)) (Finset.sum_congr rfl fun k _ => ?_)
  rw [truncf_apply, truncf_apply, hidden_at]

/-! ## The blocks of the six windows -/

theorem zero2 : (![0, 0] : Fin 2 → Nat) = fun _ => 0 := funext fun a => by fin_cases a <;> rfl
theorem zero1 : (![0] : Fin 1 → Nat) = fun _ => 0 := funext fun a => by fin_cases a; rfl

/-- The block indices over the grid: the row windows (the staged rows and the result) sit at block (t, 0) at
    point t, the weight and bias windows at block 0 throughout. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of point t's block is row 5000·t + p of the node array. -/
def rowOf (t : Fin cfg0.N) (p : Fin 5000) : Fin 100000 :=
  ⟨5000 * t.val + p.val, by have ht := t.isLt; have hN : cfg0.N = 20 := N_0; omega⟩

/-- The staged rows at point t: entry (p, j) of the block is entry (5000·t + p, j) of the input array. -/
theorem rows_at (c : Dev nD) (t : Fin cfg0.N) (p : Fin 5000) (j : Fin 128) :
    iblk0 (F := Ideal) V c 0 t (ix2 p j) = (V c main_v26 : S100000x128.Idx → Elt Ideal .f32) (ix2 (rowOf t p) j) := by
  obtain ⟨e0, e1, -⟩ := idx_facts t
  show (V c main_v26 : S100000x128.Idx → Elt Ideal .f32) (((cfg0.win 0).blk t).view.emb (ix2 p j)) = _
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * j.val = j.val; omega

/-- The first weight matrix's window holds the whole matrix at every point. -/
theorem w1_at (c : Dev nD) (t : Fin cfg0.N) (j k : Fin 128) :
    iblk0 (F := Ideal) V c 1 t (ix2 j k) = (V c main_arg6 : S128x128.Idx → Elt Ideal .f32) (ix2 j k) := by
  obtain ⟨-, -, e0, e1, -⟩ := idx_facts t
  show (V c main_arg6 : S128x128.Idx → Elt Ideal .f32) (((cfg0.win 1).blk t).view.emb (ix2 j k)) = _
  refine congrArg _ (funext fun a => Fin.ext ?_)
  match a with
  | ⟨0, _⟩ => show win0_1.index t (0 : Fin 2) * 128 + 1 * j.val = j.val; omega
  | ⟨1, _⟩ => show win0_1.index t (1 : Fin 2) * 128 + 1 * k.val = k.val; omega

/-- The first bias row's window holds the whole row at every point. -/
theorem b1_at (c : Dev nD) (t : Fin cfg0.N) (k : Fin 128) :
    iblk0 (F := Ideal) V c 2 t (ix1 k) = (V c main_arg7 : S128.Idx → Elt Ideal .f32) (ix1 k) := by
  obtain ⟨-, -, -, -, e0, -⟩ := idx_facts t
  show (V c main_arg7 : S128.Idx → Elt Ideal .f32) (((cfg0.win 2).blk t).view.emb (ix1 k)) = _
  refine congrArg _ (funext fun a => Fin.ext ?_)
  match a with
  | ⟨0, _⟩ => show win0_2.index t (0 : Fin 1) * 128 + 1 * k.val = k.val; omega

/-- The second weight matrix's window holds the whole matrix at every point. -/
theorem w2_at (c : Dev nD) (t : Fin cfg0.N) (k q : Fin 128) :
    iblk0 (F := Ideal) V c 3 t (ix2 k q) = (V c main_arg8 : S128x128.Idx → Elt Ideal .f32) (ix2 k q) := by
  obtain ⟨-, -, -, -, -, e0, e1, -⟩ := idx_facts t
  show (V c main_arg8 : S128x128.Idx → Elt Ideal .f32) (((cfg0.win 3).blk t).view.emb (ix2 k q)) = _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The second bias row's window holds the whole row at every point. -/
theorem b2_at (c : Dev nD) (t : Fin cfg0.N) (q : Fin 128) :
    iblk0 (F := Ideal) V c 4 t (ix1 q) = (V c main_arg9 : S128.Idx → Elt Ideal .f32) (ix1 q) := by
  obtain ⟨-, -, -, -, -, -, -, e0, -⟩ := idx_facts t
  show (V c main_arg9 : S128.Idx → Elt Ideal .f32) (((cfg0.win 4).blk t).view.emb (ix1 q)) = _
  refine congrArg _ (funext fun a => Fin.ext ?_)
  match a with
  | ⟨0, _⟩ => show win0_4.index t (0 : Fin 1) * 128 + 1 * q.val = q.val; omega

/-- Entry (p, q) of the result's block at point t is entry (5000·t + p, q) of the result array. -/
theorem out_at (t : Fin cfg0.N) (p : Fin 5000) (q : Fin 128) :
    (((cfg0.win 5).blk t).view.emb (ix2 p q) : S100000x128.Idx) = ix2 (rowOf t p) q := by
  obtain ⟨-, -, -, -, -, -, -, -, e0, e1⟩ := idx_facts t
  refine funext fun a => Fin.ext ?_
  match a with
  | ⟨0, _⟩ => show win0_5.index t (0 : Fin 2) * 5000 + 1 * p.val = 5000 * t.val + p.val; omega
  | ⟨1, _⟩ => show win0_5.index t (1 : Fin 2) * 128 + 1 * q.val = q.val; omega

/-! ## What each point writes back, and the array after the run -/

/-- What point t writes back is block t of the dense stage of the whole input array. -/
theorem flushed_eq (c : Dev nD) (t : Fin cfg0.N) :
    (dat0 (F := Ideal) V c).flushed 5 t = ((cfg0.win 5).blk t).view.read (Elt Ideal)
      (Cert.Spec.mlp (V c main_v26) (V c main_arg6) (V c main_arg7) (V c main_arg8) (V c main_arg9)) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Cert.Spec.mlp (V c main_v26) (V c main_arg6) (V c main_arg7) (V c main_arg8) (V c main_arg9) (((cfg0.win 5).blk t).view.emb (ix2 p q))
  rw [pay_at, out_at, b2_at]
  show _ = Cert.Spec.mlpAt (V c main_v26) (V c main_arg6) (V c main_arg7) (V c main_arg8) (V c main_arg9) (rowOf t p) q
  unfold Cert.Spec.mlpAt Cert.Spec.hidden
  refine congrArg (· + _) (Finset.sum_congr rfl fun k _ => ?_)
  rw [w2_at, b1_at]
  refine congrArg (fun s => max (s + _) 0 * _) (Finset.sum_congr rfl fun j _ => ?_)
  rw [rows_at, w1_at]

/-- An index of the result array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole (Pipeline.arrRef spec0 5)).slice (win0_5.rect t)).set ↔ _
  rw [View.set_slice_whole, Rect.mem_set_unit]
  exact Iff.rfl

/-- Every row is in some point's block: row n in that of point n / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨-, -, -, -, -, -, -, -, e0, e1⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array of the first dense region after its run, as a function of the region's input arrays. -/
theorem value (c : Dev nD) :
    (dat0 (F := Ideal) V c).arrAt 5 cfg0.N
      = Cert.Spec.mlp (V c main_v26) (V c main_arg6) (V c main_arg7) (V c main_arg8) (V c main_arg9) :=
  (dat0 (F := Ideal) V c).arrAt_eq_of_cover 5
    (Cert.Spec.mlp (V c main_v26) (V c main_arg6) (V c main_arg7) (V c main_arg8) (V c main_arg9))
    (fun t _ => flushed_eq V c t) cover

end Cert.KernelIdeal.Region0

end
-- ==== Proof.Region1.lean ====
/-
  The first normalisation stage as the pipeline leaves it: point t stages rows 5000·t … of the node array and of
  the membership matrix, the whole 64×2 table of statistics and the two 128-vectors; the body looks each row's two
  statistics up as the sum over the 64 graphs of membership × table column, normalises, scales, shifts and applies
  relu; every row is in exactly one block.
-/
import proofs.«400410_j4037269259025_1_alg».proof.Proof.Gen.KernelIdeal.Frame
import proofs.«400410_j4037269259025_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

open scoped BigOperators

variable (V : (c : Dev nD) → (b : Ref sig .tc) → Buf (Elt Ideal) ((c : Thread nD τ).loc b))

/-! ## Layout operations of a keepdims column, read at coordinates -/

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at one entry -/

/-- Column 0 of the 64×2 table, laid out as a row `[1, 64]`, reads the table at `(q, 0)`. -/
theorem col0_apply (tab : FVec Ideal S64x2 .f32) (u : Fin 1) (q : Fin 64) :
    shapeCast S1x64 (shapeCast S64 (extractStridedSlice S64x1 ![0, 0] tab slices_S64x2_o0_0_S64x1) shapeCasts_S64x1_S64)
        shapeCasts_S64_S1x64 (ix2 u q) = tab (ix2 q (0 : Fin 2)) := by
  refine (shapeCast_a_1a_apply _ _ u q).trans ?_
  refine (shapeCast_a1_a_apply _ _ q).trans ?_
  exact slice2_axis1_apply 0 tab _ q (0 : Fin 1) (0 : Fin 2) rfl

/-- Column 1 of the table likewise reads the table at `(q, 1)`. -/
theorem col1_apply (tab : FVec Ideal S64x2 .f32) (u : Fin 1) (q : Fin 64) :
    shapeCast S1x64 (shapeCast S64 (extractStridedSlice S64x1 ![0, 1] tab slices_S64x2_o0_1_S64x1) shapeCasts_S64x1_S64)
        shapeCasts_S64_S1x64 (ix2 u q) = tab (ix2 q (1 : Fin 2)) := by
  refine (shapeCast_a_1a_apply _ _ u q).trans ?_
  refine (shapeCast_a1_a_apply _ _ q).trans ?_
  exact slice2_axis1_apply 1 tab _ q (0 : Fin 1) (1 : Fin 2) rfl

/-- The lane sum, at row `r`, of the membership block times a row `[1, 64]` broadcast along the rows:
    `∑ q, oh[r, q] · row[0, q]`. -/
theorem laneSum_apply (oh : FVec Ideal S5000x64 .f32) (row : FVec Ideal S1x64 .f32) (r : Fin 5000) :
    multiReduction (F := Ideal) .add [1] S5000 (mulf oh (broadcastTo S5000x64 row broadcasts_S1x64_S5000x64))
        0x00000000#32 reduces_S5000x64_S5000 (.inl rfl) rfl (ix1 r)
      = ∑ q : Fin 64, oh (ix2 r q) * row (ix2 (0 : Fin 1) q) := by
  refine (Ideal.multiReduction_add_single _ 0x00000000#32 reduces_S5000x64_S5000 (.inl rfl) rfl (ix1 r)).trans ?_
  show (∑ q : Fin 64, _) = _
  refine Finset.sum_congr rfl fun q _ => ?_
  have hl : reduces_S5000x64_S5000.lift (ix1 r) q = ix2 r q := by
    funext a; apply Fin.ext
    match a with
    | ⟨0, _⟩ => rfl
    | ⟨1, _⟩ => rfl
  rw [hl, mulf_apply, broadcastTo_1b_ab_apply]

/-- A per-row statistic `[5000]`, reshaped to a column and broadcast along the 128 lanes, reads the statistic of the row. -/
theorem rowStat_apply (s : FVec Ideal S5000 .f32) (r : Fin 5000) (cc : Fin 128) :
    broadcastTo S5000x128 (shapeCast S5000x1 s shapeCasts_S5000_S5000x1) broadcasts_S5000x1_S5000x128 (ix2 r cc)
      = s (ix1 r) := by
  refine (broadcastTo_a1_ab_apply _ _ r cc).trans ?_
  exact shapeCast_a_a1_apply _ _ r (0 : Fin 1)

/-- A 128-vector, reshaped to a row and broadcast along the 5000 rows, reads the vector at the lane. -/
theorem laneVec_apply (g : FVec Ideal S128 .f32) (r : Fin 5000) (cc : Fin 128) :
    broadcastTo S5000x128 (shapeCast S1x128 g shapeCasts_S128_S1x128) broadcasts_S1x128_S5000x128 (ix2 r cc)
      = g (ix1 cc) := by
  refine (broadcastTo_1b_ab_apply _ _ r cc).trans ?_
  exact shapeCast_a_1a_apply _ _ (0 : Fin 1) cc

/-- THE BODY AT ONE ENTRY: row `r`, lane `cc` of what the body stores is
    relu ((x[r,cc] − ∑_q oh[r,q]·tab[q,0]) · (∑_q oh[r,q]·tab[q,1]) · γ[cc] + β[cc]). -/
theorem pay_apply (x : FVec Ideal S5000x128 .f32) (oh : FVec Ideal S5000x64 .f32) (tab : FVec Ideal S64x2 .f32)
    (γ β : FVec Ideal S128 .f32) (r : Fin 5000) (cc : Fin 128) :
    k1_pay1 (F := Ideal) x oh tab γ β (ix2 r cc)
      = max (((x (ix2 r cc) - ∑ q : Fin 64, oh (ix2 r q) * tab (ix2 q (0 : Fin 2)))
          * (∑ q : Fin 64, oh (ix2 r q) * tab (ix2 q (1 : Fin 2)))) * γ (ix1 cc) + β (ix1 cc)) 0 := by
  unfold k1_pay1
  simp only [shapeCast_self]
  rw [maximumf_apply, addf_apply, mulf_apply, mulf_apply, subf_apply, broadcast_apply,
    laneVec_apply, laneVec_apply, rowStat_apply, rowStat_apply, laneSum_apply, laneSum_apply]
  simp only [col0_apply, col1_apply]
  exact congrArg _ Ideal.ofBits_zero_f32

/-! ## What a point writes back -/

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row-blocked windows sit at block (t, 0); the table and the two
    128-vectors are whole arrays at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 1) = 0
    ∧ win1_5.index t (0 : Fin 2) = t.val ∧ win1_5.index t (1 : Fin 2) = 0 :=
  (by decide +kernel : ∀ t : Fin grid1.N, _)

/-- The node window's block at point `t` holds rows `5000·t …` of the node array. -/
theorem nodeBlk_apply (c : Dev nD) (t : Fin cfg1.N) (r : Fin 5000) (cc : Fin 128) (n : Fin 100000)
    (hn : n.val = t.val * 5000 + r.val) :
    (iblk1 V c 0 t : FVec Ideal S5000x128 .f32) (ix2 r cc) = (V c main_v27 : S100000x128.Idx → EReal) (ix2 n cc) := by
  obtain ⟨e0, e1, -⟩ := idx_facts t
  unfold iblk1
  rw [View.read_apply]
  show V c main_v27 _ = V c main_v27 _
  congr 1
  funext a; apply Fin.ext
  match a with
  | ⟨0, _⟩ => show win1_0.index t (0 : Fin 2) * 5000 + 1 * r.val = n.val; rw [e0, hn]; omega
  | ⟨1, _⟩ => show win1_0.index t (1 : Fin 2) * 128 + 1 * cc.val = cc.val; rw [e1]; omega

/-- The membership window's block at point `t` holds rows `5000·t …` of the membership matrix. -/
theorem hotBlk_apply (c : Dev nD) (t : Fin cfg1.N) (r : Fin 5000) (q : Fin 64) (n : Fin 100000)
    (hn : n.val = t.val * 5000 + r.val) :
    (iblk1 V c 1 t : FVec Ideal S5000x64 .f32) (ix2 r q) = (V c main_v10 : S100000x64.Idx → EReal) (ix2 n q) := by
  obtain ⟨-, -, e0, e1, -⟩ := idx_facts t
  unfold iblk1
  rw [View.read_apply]
  show V c main_v10 _ = V c main_v10 _
  congr 1
  funext a; apply Fin.ext
  match a with
  | ⟨0, _⟩ => show win1_1.index t (0 : Fin 2) * 5000 + 1 * r.val = n.val; rw [e0, hn]; omega
  | ⟨1, _⟩ => show win1_1.index t (1 : Fin 2) * 64 + 1 * q.val = q.val; rw [e1]; omega

/-- The table's window holds the whole 64×2 table at every point. -/
theorem tabBlk_apply (c : Dev nD) (t : Fin cfg1.N) (q : Fin 64) (k : Fin 2) :
    (iblk1 V c 2 t : FVec Ideal S64x2 .f32) (ix2 q k) = (V c main_v54 : S64x2.Idx → EReal) (ix2 q k) := by
  obtain ⟨-, -, -, -, e0, e1, -⟩ := idx_facts t
  unfold iblk1
  rw [View.read_apply]
  show V c main_v54 _ = V c main_v54 _
  congr 1
  funext a; apply Fin.ext
  match a with
  | ⟨0, _⟩ => show win1_2.index t (0 : Fin 2) * 64 + 1 * q.val = q.val; rw [e0]; omega
  | ⟨1, _⟩ => show win1_2.index t (1 : Fin 2) * 2 + 1 * k.val = k.val; rw [e1]; omega

/-- The scale vector's window holds the whole vector at every point. -/
theorem gammaBlk_apply (c : Dev nD) (t : Fin cfg1.N) (cc : Fin 128) :
    (iblk1 V c 3 t : FVec Ideal S128 .f32) (ix1 cc) = (V c main_arg14 : S128.Idx → EReal) (ix1 cc) := by
  obtain ⟨-, -, -, -, -, -, e0, -⟩ := idx_facts t
  unfold iblk1
  rw [View.read_apply]
  show V c main_arg14 _ = V c main_arg14 _
  congr 1
  funext a; apply Fin.ext
  match a with
  | ⟨0, _⟩ => show win1_3.index t (0 : Fin 1) * 128 + 1 * cc.val = cc.val; rw [e0]; omega

/-- The shift vector's window holds the whole vector at every point. -/
theorem betaBlk_apply (c : Dev nD) (t : Fin cfg1.N) (cc : Fin 128) :
    (iblk1 V c 4 t : FVec Ideal S128 .f32) (ix1 cc) = (V c main_arg15 : S128.Idx → EReal) (ix1 cc) := by
  obtain ⟨-, -, -, -, -, -, -, e0, -⟩ := idx_facts t
  unfold iblk1
  rw [View.read_apply]
  show V c main_arg15 _ = V c main_arg15 _
  congr 1
  funext a; apply Fin.ext
  match a with
  | ⟨0, _⟩ => show win1_4.index t (0 : Fin 1) * 128 + 1 * cc.val = cc.val; rw [e0]; omega

/-- The stage's result at an index written by coordinates. -/
theorem lnRelu_apply (g : Cert.Spec.Nodes.Idx → EReal) (oh : Cert.Spec.Hot.Idx → EReal) (tab : Cert.Spec.Tab.Idx → EReal)
    (γ β : Cert.Spec.Row.Idx → EReal) (n : Fin 100000) (cc : Fin 128) :
    Cert.Spec.lnRelu g oh tab γ β (ix2 n cc)
      = max (((g (ix2 n cc) - ∑ q : Fin 64, oh (ix2 n q) * tab (ix2 q (0 : Fin 2)))
          * (∑ q : Fin 64, oh (ix2 n q) * tab (ix2 q (1 : Fin 2)))) * γ (ix1 cc) + β (ix1 cc)) 0 := rfl

/-- WHAT POINT `t` WRITES BACK is block `t` of the stage's result on the arrays as the region finds them. -/
theorem flushed_eq (c : Dev nD) (t : Fin cfg1.N) :
    (dat1 (F := Ideal) V c).flushed 5 t = ((cfg1.win 5).blk t).view.read (Elt Ideal)
      (Cert.Spec.lnRelu (V c main_v27) (V c main_v10) (V c main_v54) (V c main_arg14) (V c main_arg15)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S5000x64) hz2,
    View.ld_unit_zero (S := S64x2) hz2, View.ld_unit_zero (S := S128) hz1]
  funext j
  obtain ⟨r, cc, rfl⟩ : ∃ (r : Fin 5000) (cc : Fin 128), j = ix2 r cc := ⟨j 0, j 1, eq_ix2 j⟩
  have ht : t.val < 20 := lt_of_lt_of_eq t.isLt N_1
  obtain ⟨-, -, -, -, -, -, -, -, e0, e1⟩ := idx_facts t
  have hi : ((cfg1.win 5).blk t).view.emb (ix2 r cc)
      = (ix2 (⟨t.val * 5000 + r.val, by omega⟩ : Fin 100000) cc : S100000x128.Idx) := by
    funext a; apply Fin.ext
    match a with
    | ⟨0, _⟩ => show win1_5.index t (0 : Fin 2) * 5000 + 1 * r.val = t.val * 5000 + r.val; rw [e0]; omega
    | ⟨1, _⟩ => show win1_5.index t (1 : Fin 2) * 128 + 1 * cc.val = cc.val; rw [e1]; omega
  show k1_pay1 (F := Ideal) (iblk1 V c 0 t) (iblk1 V c 1 t) (iblk1 V c 2 t) (iblk1 V c 3 t) (iblk1 V c 4 t) (ix2 r cc)
    = Cert.Spec.lnRelu (V c main_v27) (V c main_v10) (V c main_v54) (V c main_arg14) (V c main_arg15)
        (((cfg1.win 5).blk t).view.emb (ix2 r cc))
  rw [hi, lnRelu_apply, pay_apply]
  rw [nodeBlk_apply V c t r cc ⟨t.val * 5000 + r.val, by omega⟩ rfl, gammaBlk_apply, betaBlk_apply]
  simp only [hotBlk_apply V c t r _ ⟨t.val * 5000 + r.val, by omega⟩ rfl, tabBlk_apply]

/-! ## From the blocks to the array -/

/-- An index of the result array is in point `t`'s block iff each coordinate is in the block's range on its axis. -/
theorem mem_blk (t : Fin cfg1.N) (i : S100000x128.Idx) :
    i ∈ ((cfg1.win 5).blk t).view.set
      ↔ ∀ a : Fin 2, win1_5.index t a * S5000x128.size a ≤ (i a).val
          ∧ (i a).val < win1_5.index t a * S5000x128.size a + S5000x128.size a := by
  show i ∈ ((View.whole main_v55).slice (win1_5.rect t)).set ↔ _
  rw [View.set_slice_whole, Rect.mem_set_unit]
  exact Iff.rfl

/-- Every row is in a block: row `n` is in the block of point `n / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 5000, by rw [show cfg1.N = 20 from N_1]; omega⟩
  have htv : t.val = (i 0).val / 5000 := rfl
  obtain ⟨-, -, -, -, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e0, htv]; omega
  | ⟨1, _⟩ =>
    show win1_5.index t (1 : Fin 2) * 128 ≤ (i 1).val ∧ (i 1).val < win1_5.index t (1 : Fin 2) * 128 + 128
    rw [e1]; omega

/-- The output array of the first normalisation region after its run, as a function of the region's input arrays. -/
theorem value (c : Dev nD) :
    (dat1 (F := Ideal) V c).arrAt 5 cfg1.N
      = Cert.Spec.lnRelu (V c main_v27) (V c main_v10) (V c main_v54) (V c main_arg14) (V c main_arg15) :=
  (dat1 (F := Ideal) V c).arrAt_eq_of_cover 5
    (Cert.Spec.lnRelu (V c main_v27) (V c main_v10) (V c main_v54) (V c main_arg14) (V c main_arg15))
    (fun t _ => flushed_eq V c t) cover

end Cert.KernelIdeal.Region1

end
-- ==== Proof.KChainA.lean ====
/-
  The program's buffers read back through its first half: the host operations before the first dense region leave
  (1 + eps₁) · x + the summed messages in that region's input, the membership matrix, and the two flat rows of the edge
  list; the dense region leaves the dense stage of its input; the host operations after it leave the table of
  statistics; the normalisation region leaves the normalised, rectified array. No operation writes an argument.
-/
import proofs.«400410_j4037269259025_1_alg».proof.Proof.Gen.KernelIdeal.Frame
import proofs.«400410_j4037269259025_1_alg».proof.Proof.StagesK
import proofs.«400410_j4037269259025_1_alg».proof.Proof.Spec
import proofs.«400410_j4037269259025_1_alg».proof.Proof.Region0
import proofs.«400410_j4037269259025_1_alg».proof.Proof.Region1
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first dense region's input: (1 + eps₁) · x + the summed messages. -/
def h1 (c : Dev nD) : Cert.Spec.Nodes.Idx → EReal :=
  Stage.pre (F := Ideal) (m ((c.tc : Thread nD τ).loc main_arg0)) (m ((c.tc : Thread nD τ).loc main_arg1))
    (m ((c.tc : Thread nD τ).loc main_arg2)) (m ((c.tc : Thread nD τ).loc main_arg4))

/-- The first dense stage. -/
def g1 (c : Dev nD) : Cert.Spec.Nodes.Idx → EReal :=
  Cert.Spec.mlp (h1 m c) (m ((c.tc : Thread nD τ).loc main_arg6)) (m ((c.tc : Thread nD τ).loc main_arg7))
    (m ((c.tc : Thread nD τ).loc main_arg8)) (m ((c.tc : Thread nD τ).loc main_arg9))

/-- The membership matrix of the graph ids. -/
def oh (c : Dev nD) : Cert.Spec.Hot.Idx → EReal := Stage.onehot (F := Ideal) (m ((c.tc : Thread nD τ).loc main_arg3))

/-- The first table of statistics. -/
def t1 (c : Dev nD) : Cert.Spec.Tab.Idx → EReal := Stage.table (F := Ideal) (g1 m c) (m ((c.tc : Thread nD τ).loc main_arg3))

/-- The first normalisation stage, rectified. -/
def o1 (c : Dev nD) : Cert.Spec.Nodes.Idx → EReal :=
  Cert.Spec.lnRelu (g1 m c) (oh m c) (t1 m c) (m ((c.tc : Thread nD τ).loc main_arg14)) (m ((c.tc : Thread nD τ).loc main_arg15))

/-! ## One stretch of host operations, read back at a result reference

Each stretch is a literal list of operations; from any contents `X` of the buffers, a result reference ends holding its
operation's function of the operands' contents, themselves read back through the stretch down to references the
stretch does not write. -/

section Stretches

variable (X : Valuation τ sig (Elt Ideal))

/-- The flat source row is the reshaped first row of the edge list. -/
theorem ops0_v1 : StableHlo.after (hostOps0 (F := Ideal)) X (Proc.devRef .tc main_v1)
    = Stage.src (F := Ideal) (X (Proc.devRef .tc main_arg1)) := by
  after_results_simp <;> rfl

/-- The flat target row is the reshaped second row of the edge list. -/
theorem ops0_v3 : StableHlo.after (hostOps0 (F := Ideal)) X (Proc.devRef .tc main_v3)
    = Stage.dst (F := Ideal) (X (Proc.devRef .tc main_arg1)) := by
  after_results_simp <;> rfl

/-- The membership matrix compares every node's graph id with 0 … 63. -/
theorem ops0_v10 : StableHlo.after (hostOps0 (F := Ideal)) X (Proc.devRef .tc main_v10)
    = Stage.onehot (F := Ideal) (X (Proc.devRef .tc main_arg3)) := by
  after_results_simp <;> rfl

/-- Before the relu an edge's message is the row of x at its (wrapped) source plus the edge's features. -/
theorem ops0_v18 : StableHlo.after (hostOps0 (F := Ideal)) X (Proc.devRef .tc main_v18)
    = (addf (F := Ideal) (φ := .f32) (Host.gather gather_S100000x128_S1600000x1_S1600000x128_1_0_n_n_0_1_1128 (X (Proc.devRef .tc main_arg0))
        (Stage.srcCol (F := Ideal) (X (Proc.devRef .tc main_arg1)))) (X (Proc.devRef .tc main_arg2)) : (⟨S1600000x128, .f32⟩ : BufTy).Contents (Elt Ideal)) := by
  after_results_simp <;> rfl

/-- The message relu is the maximum with the zero array. -/
theorem ops01_v19 : StableHlo.after (hostOps0_1 (F := Ideal)) X (Proc.devRef .tc main_v19)
    = maximumf (X (Proc.devRef .tc main_v18))
        (broadcastInDim S1600000x128 ![] bcast_S_S1600000x128 (constant (F := Ideal) S_ .f32 0x00000000#32)) := by
  after_results <;> rfl

/-- The dense region's input is (1 + eps) · x plus the messages summed into their target rows. -/
theorem ops02_v26 : StableHlo.after (hostOps0_2 (F := Ideal)) X (Proc.devRef .tc main_v26)
    = addf (mulf (broadcastInDim S100000x128 ![] bcast_S_S100000x128 (addf (constant (F := Ideal) S_ .f32 0x3F800000#32) (X (Proc.devRef .tc main_arg4))))
          (X (Proc.devRef .tc main_arg0)))
        (Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (X (Proc.devRef .tc main_v3)))
          (X (Proc.devRef .tc main_v19))) := by
  after_results <;> rfl

/-- The table of statistics is computed from the dense stage's output and the graph ids. -/
theorem ops1_v54 : StableHlo.after (hostOps1 (F := Ideal)) X (Proc.devRef .tc main_v54)
    = Stage.table (F := Ideal) (X (Proc.devRef .tc main_v27)) (X (Proc.devRef .tc main_arg3)) := by
  after_results_simp <;> rfl

end Stretches

/-! ## What each stretch of host operations writes

A reference outside a stretch's list of result references keeps its contents through the stretch. -/

/-- The result references of the operations before the message relu. -/
abbrev wr0 : List (Ref sig .tc) :=
  [main_v0, main_v1, main_v2, main_v3, main_v4, main_v5, main_v6, main_v7, main_v8, main_v9, main_v10, main_c, main_v11,
   main_v12, main_c_0, main_v13, main_v14, main_v15, main_v16, main_v17, main_v18]
/-- The result references of the message relu. -/
abbrev wr01 : List (Ref sig .tc) := [main_call0_cst, main_call0_v0, main_v19]
/-- The result references of the operations between the message relu and the first dense region. -/
abbrev wr02 : List (Ref sig .tc) :=
  [main_cst, main_v20, main_v21, main_v22, main_cst_1, main_v23, main_v24, main_v25, main_v26]
/-- The result references of the operations between the first dense region and the first normalisation region. -/
abbrev wr1 : List (Ref sig .tc) :=
  [main_cst_2, main_v28, main_v29, main_cst_3, main_v30, main_cst_4, main_v31, main_cst_5, main_v32, main_v33, main_v34,
   main_cst_6, main_v35, main_v36, main_cst_7, main_v37, main_v38, main_cst_8, main_v39, main_v40, main_v41, main_cst_9,
   main_v42, main_v43, main_v44, main_v45, main_v46, main_v47, main_v48, main_cst_10, main_v49, main_v50, main_v51,
   main_v52, main_v53, main_v54]

/-- Every operation of a literal stretch writes one reference of the given list. -/
local macro "writes_in_list" ops:ident : tactic =>
  `(tactic| (
      simp only [$ops:ident, List.Forall]
      repeat' apply And.intro
      all_goals (
        simp only [StableHlo.nullary_writes, StableHlo.unary_writes, StableHlo.binary_writes,
          StableHlo.ternary_writes, StableHlo.reshape_writes, Finset.singleton_subset_iff, List.mem_toFinset]
        exact List.mem_map_of_mem (by decide))))

theorem writes0 : (hostOps0 : List (HloOp τ sig (Elt Ideal))).Forall
    fun op => op.writes ⊆ (wr0.map (Proc.devRef (τ := τ) .tc)).toFinset := by writes_in_list hostOps0
theorem writes01 : (hostOps0_1 : List (HloOp τ sig (Elt Ideal))).Forall
    fun op => op.writes ⊆ (wr01.map (Proc.devRef (τ := τ) .tc)).toFinset := by writes_in_list hostOps0_1
theorem writes02 : (hostOps0_2 : List (HloOp τ sig (Elt Ideal))).Forall
    fun op => op.writes ⊆ (wr02.map (Proc.devRef (τ := τ) .tc)).toFinset := by writes_in_list hostOps0_2
theorem writes1 : (hostOps1 : List (HloOp τ sig (Elt Ideal))).Forall
    fun op => op.writes ⊆ (wr1.map (Proc.devRef (τ := τ) .tc)).toFinset := by writes_in_list hostOps1

/-! ## The boundaries' contents at a reference a stretch or a region leaves alone -/

theorem W1_keep (c : Dev nD) {r : Ref sig .tc} (h : r ∉ wr0) :
    W1 m ρ c (Proc.devRef .tc r) = W0 m ρ c (Proc.devRef .tc r) :=
  StableHlo.after_of_writes_sub hostOps0 _ writes0 h
theorem W2_keep (c : Dev nD) {r : Ref sig .tc} (h : r ∉ wr01) :
    W2 m ρ c (Proc.devRef .tc r) = W1 m ρ c (Proc.devRef .tc r) :=
  StableHlo.after_of_writes_sub hostOps0_1 _ writes01 h
theorem W3_keep (c : Dev nD) {r : Ref sig .tc} (h : r ∉ wr02) :
    W3 m ρ c (Proc.devRef .tc r) = W2 m ρ c (Proc.devRef .tc r) :=
  StableHlo.after_of_writes_sub hostOps0_2 _ writes02 h
theorem W5_keep (c : Dev nD) {r : Ref sig .tc} (h : r ∉ wr1) :
    W5 m ρ c (Proc.devRef .tc r) = W4 m ρ c (Proc.devRef .tc r) :=
  StableHlo.after_of_writes_sub hostOps1 _ writes1 h

/-- A reference the first two stretches do not write holds its launch contents after them. -/
theorem W2_launch (c : Dev nD) {r : Ref sig .tc} (h0 : r ∉ wr0) (h1 : r ∉ wr01) :
    W2 m ρ c (Proc.devRef .tc r) = m ((c.tc : Thread nD τ).loc r) :=
  (W2_keep m ρ c h1).trans (W1_keep m ρ c h0)

/-- A reference no operation before the first dense region writes holds its launch contents at that region's entry. -/
theorem W3_launch (c : Dev nD) {r : Ref sig .tc} (h0 : r ∉ wr0) (h1 : r ∉ wr01) (h2 : r ∉ wr02) :
    W3 m ρ c (Proc.devRef .tc r) = m ((c.tc : Thread nD τ).loc r) :=
  (W3_keep m ρ c h2).trans ((W2_keep m ρ c h1).trans (W1_keep m ρ c h0))

/-- Through the first dense region, the operations after it and the first normalisation region, a reference none of
    them writes keeps what it held at the first dense region's entry. -/
theorem W6_of_W3 (c : Dev nD) {r : Ref sig .tc} (hr0 : ∀ w, Pipeline.arrRef spec0 w ≠ r) (h3 : r ∉ wr1)
    (hr1 : ∀ w, Pipeline.arrRef spec1 w ≠ r) :
    W6 m ρ c (Proc.devRef .tc r) = W3 m ρ c (Proc.devRef .tc r) :=
  (W6_of_ne m ρ c r hr1).trans ((W5_keep m ρ c h3).trans (W4_of_ne m ρ c r hr0))

/-- A reference neither a host operation nor a region of the first half writes holds its launch contents after the
    first normalisation region. -/
theorem W6_launch (c : Dev nD) {r : Ref sig .tc} (h0 : r ∉ wr0) (h1 : r ∉ wr01) (h2 : r ∉ wr02)
    (hr0 : ∀ w, Pipeline.arrRef spec0 w ≠ r) (h3 : r ∉ wr1) (hr1 : ∀ w, Pipeline.arrRef spec1 w ≠ r) :
    W6 m ρ c (Proc.devRef .tc r) = m ((c.tc : Thread nD τ).loc r) :=
  (W6_of_W3 m ρ c hr0 h3 hr1).trans (W3_launch m ρ c h0 h1 h2)

/-! ## The first dense region's entry -/

theorem W1_v1 (c : Dev nD) : W1 m ρ c (Proc.devRef .tc main_v1) = Stage.src (F := Ideal) (m ((c.tc : Thread nD τ).loc main_arg1)) :=
  ops0_v1 (W0 m ρ c)
theorem W1_v3 (c : Dev nD) : W1 m ρ c (Proc.devRef .tc main_v3) = Stage.dst (F := Ideal) (m ((c.tc : Thread nD τ).loc main_arg1)) :=
  ops0_v3 (W0 m ρ c)
theorem W1_v10 (c : Dev nD) : W1 m ρ c (Proc.devRef .tc main_v10) = oh m c :=
  ops0_v10 (W0 m ρ c)
theorem W1_v18 (c : Dev nD) : W1 m ρ c (Proc.devRef .tc main_v18)
    = (addf (F := Ideal) (φ := .f32) (Host.gather gather_S100000x128_S1600000x1_S1600000x128_1_0_n_n_0_1_1128 (m ((c.tc : Thread nD τ).loc main_arg0))
        (Stage.srcCol (F := Ideal) (m ((c.tc : Thread nD τ).loc main_arg1)))) (m ((c.tc : Thread nD τ).loc main_arg2)) : (⟨S1600000x128, .f32⟩ : BufTy).Contents (Elt Ideal)) :=
  ops0_v18 (W0 m ρ c)

/-- After the message relu its buffer holds every edge's message. -/
theorem W2_v19 (c : Dev nD) : W2 m ρ c (Proc.devRef .tc main_v19)
    = Stage.msg (F := Ideal) (m ((c.tc : Thread nD τ).loc main_arg0)) (m ((c.tc : Thread nD τ).loc main_arg1)) (m ((c.tc : Thread nD τ).loc main_arg2)) := by
  show StableHlo.after hostOps0_1 (W1 m ρ c) (Proc.devRef .tc main_v19) = _
  rw [ops01_v19, W1_v18]
  rfl

theorem W2_v3 (c : Dev nD) : W2 m ρ c (Proc.devRef .tc main_v3) = Stage.dst (F := Ideal) (m ((c.tc : Thread nD τ).loc main_arg1)) :=
  (W2_keep m ρ c (by decide)).trans (W1_v3 m ρ c)

/-- The first dense region finds (1 + eps₁) · x + the summed messages in its input buffer. -/
theorem V3_v26 (c : Dev nD) : V3 m ρ c main_v26 = h1 m c := by
  show StableHlo.after hostOps0_2 (W2 m ρ c) (Proc.devRef .tc main_v26) = _
  rw [ops02_v26, W2_v3, W2_v19, W2_launch m ρ c (r := main_arg4) (by decide) (by decide),
    W2_launch m ρ c (r := main_arg0) (by decide) (by decide)]
  rfl

/-- The first dense region finds its four weight arrays as launched. -/
theorem V3_arg6 (c : Dev nD) : V3 m ρ c main_arg6 = m ((c.tc : Thread nD τ).loc main_arg6) :=
  W3_launch m ρ c (by decide) (by decide) (by decide)
theorem V3_arg7 (c : Dev nD) : V3 m ρ c main_arg7 = m ((c.tc : Thread nD τ).loc main_arg7) :=
  W3_launch m ρ c (by decide) (by decide) (by decide)
theorem V3_arg8 (c : Dev nD) : V3 m ρ c main_arg8 = m ((c.tc : Thread nD τ).loc main_arg8) :=
  W3_launch m ρ c (by decide) (by decide) (by decide)
theorem V3_arg9 (c : Dev nD) : V3 m ρ c main_arg9 = m ((c.tc : Thread nD τ).loc main_arg9) :=
  W3_launch m ρ c (by decide) (by decide) (by decide)

theorem W3_v1 (c : Dev nD) : W3 m ρ c (Proc.devRef .tc main_v1) = Stage.src (F := Ideal) (m ((c.tc : Thread nD τ).loc main_arg1)) :=
  (W3_keep m ρ c (by decide)).trans ((W2_keep m ρ c (by decide)).trans (W1_v1 m ρ c))
theorem W3_v3 (c : Dev nD) : W3 m ρ c (Proc.devRef .tc main_v3) = Stage.dst (F := Ideal) (m ((c.tc : Thread nD τ).loc main_arg1)) :=
  (W3_keep m ρ c (by decide)).trans (W2_v3 m ρ c)
theorem W3_v10 (c : Dev nD) : W3 m ρ c (Proc.devRef .tc main_v10) = oh m c :=
  (W3_keep m ρ c (by decide)).trans ((W2_keep m ρ c (by decide)).trans (W1_v10 m ρ c))

/-! ## The first dense region's exit -/

/-- The first dense region leaves the dense stage of its input in its output buffer. -/
theorem W4_v27 (c : Dev nD) : W4 m ρ c (Proc.devRef .tc main_v27) = g1 m c := by
  refine ((W4_arr m ρ c 5).trans (Region0.value (V3 m ρ) c)).trans ?_
  rw [V3_v26, V3_arg6, V3_arg7, V3_arg8, V3_arg9]
  rfl

theorem W4_arg3 (c : Dev nD) : W4 m ρ c (Proc.devRef .tc main_arg3) = m ((c.tc : Thread nD τ).loc main_arg3) :=
  (W4_of_ne m ρ c main_arg3 (by decide)).trans (W3_launch m ρ c (by decide) (by decide) (by decide))

/-! ## The first normalisation region's entry -/

theorem V5_v27 (c : Dev nD) : V5 m ρ c main_v27 = g1 m c :=
  (W5_keep m ρ c (by decide)).trans (W4_v27 m ρ c)
theorem V5_v10 (c : Dev nD) : V5 m ρ c main_v10 = oh m c :=
  (W5_keep m ρ c (by decide)).trans ((W4_of_ne m ρ c main_v10 (by decide)).trans (W3_v10 m ρ c))
/-- The first normalisation region finds the table of statistics of the dense stage. -/
theorem V5_v54 (c : Dev nD) : V5 m ρ c main_v54 = t1 m c := by
  show StableHlo.after hostOps1 (W4 m ρ c) (Proc.devRef .tc main_v54) = _
  rw [ops1_v54, W4_v27, W4_arg3]
  rfl
theorem V5_arg14 (c : Dev nD) : V5 m ρ c main_arg14 = m ((c.tc : Thread nD τ).loc main_arg14) :=
  (W5_keep m ρ c (by decide)).trans ((W4_of_ne m ρ c main_arg14 (by decide)).trans (W3_launch m ρ c (by decide) (by decide) (by decide)))
theorem V5_arg15 (c : Dev nD) : V5 m ρ c main_arg15 = m ((c.tc : Thread nD τ).loc main_arg15) :=
  (W5_keep m ρ c (by decide)).trans ((W4_of_ne m ρ c main_arg15 (by decide)).trans (W3_launch m ρ c (by decide) (by decide) (by decide)))

/-! ## After the first normalisation region -/

/-- After the first normalisation region its output buffer holds the normalised, rectified array. -/
theorem W6_v55 (c : Dev nD) : W6 m ρ c (Proc.devRef .tc main_v55) = o1 m c := by
  refine ((W6_arr m ρ c 5).trans (Region1.value (V5 m ρ) c)).trans ?_
  rw [V5_v27, V5_v10, V5_v54, V5_arg14, V5_arg15]
  rfl

/-- The flat source row of the edge list is still in its buffer. -/
theorem W6_v1 (c : Dev nD) : W6 m ρ c (Proc.devRef .tc main_v1) = Stage.src (F := Ideal) (m ((c.tc : Thread nD τ).loc main_arg1)) := by
  exact (W6_of_W3 m ρ c (by decide) (by decide) (by decide)).trans (W3_v1 m ρ c)

/-- The flat target row of the edge list is still in its buffer. -/
theorem W6_v3 (c : Dev nD) : W6 m ρ c (Proc.devRef .tc main_v3) = Stage.dst (F := Ideal) (m ((c.tc : Thread nD τ).loc main_arg1)) := by
  exact (W6_of_W3 m ρ c (by decide) (by decide) (by decide)).trans (W3_v3 m ρ c)

/-- The membership matrix is still in its buffer. -/
theorem W6_v10 (c : Dev nD) : W6 m ρ c (Proc.devRef .tc main_v10) = oh m c := by
  exact ((W6_arr m ρ c 1).trans (((dat1 (V5 m ρ) c).arrAt_in 1 rfl _).trans (A_eq1 (V5 m ρ) c 1))).trans (V5_v10 m ρ c)

/-- Every argument the second half reads is still as launched. -/
theorem W6_arg0 (c : Dev nD) : W6 m ρ c (Proc.devRef .tc main_arg0) = m ((c.tc : Thread nD τ).loc main_arg0) := by exact W6_launch m ρ c (by decide) (by decide) (by decide) (by decide) (by decide) (by decide)
theorem W6_arg2 (c : Dev nD) : W6 m ρ c (Proc.devRef .tc main_arg2) = m ((c.tc : Thread nD τ).loc main_arg2) := by exact W6_launch m ρ c (by decide) (by decide) (by decide) (by decide) (by decide) (by decide)
theorem W6_arg3 (c : Dev nD) : W6 m ρ c (Proc.devRef .tc main_arg3) = m ((c.tc : Thread nD τ).loc main_arg3) := by exact W6_launch m ρ c (by decide) (by decide) (by decide) (by decide) (by decide) (by decide)
theorem W6_arg5 (c : Dev nD) : W6 m ρ c (Proc.devRef .tc main_arg5) = m ((c.tc : Thread nD τ).loc main_arg5) := by exact W6_launch m ρ c (by decide) (by decide) (by decide) (by decide) (by decide) (by decide)
theorem W6_arg10 (c : Dev nD) : W6 m ρ c (Proc.devRef .tc main_arg10) = m ((c.tc : Thread nD τ).loc main_arg10) := by exact W6_launch m ρ c (by decide) (by decide) (by decide) (by decide) (by decide) (by decide)
theorem W6_arg11 (c : Dev nD) : W6 m ρ c (Proc.devRef .tc main_arg11) = m ((c.tc : Thread nD τ).loc main_arg11) := by exact W6_launch m ρ c (by decide) (by decide) (by decide) (by decide) (by decide) (by decide)
theorem W6_arg12 (c : Dev nD) : W6 m ρ c (Proc.devRef .tc main_arg12) = m ((c.tc : Thread nD τ).loc main_arg12) := by exact W6_launch m ρ c (by decide) (by decide) (by decide) (by decide) (by decide) (by decide)
theorem W6_arg13 (c : Dev nD) : W6 m ρ c (Proc.devRef .tc main_arg13) = m ((c.tc : Thread nD τ).loc main_arg13) := by exact W6_launch m ρ c (by decide) (by decide) (by decide) (by decide) (by decide) (by decide)
theorem W6_arg16 (c : Dev nD) : W6 m ρ c (Proc.devRef .tc main_arg16) = m ((c.tc : Thread nD τ).loc main_arg16) := by exact W6_launch m ρ c (by decide) (by decide) (by decide) (by decide) (by decide) (by decide)
theorem W6_arg17 (c : Dev nD) : W6 m ρ c (Proc.devRef .tc main_arg17) = m ((c.tc : Thread nD τ).loc main_arg17) := by exact W6_launch m ρ c (by decide) (by decide) (by decide) (by decide) (by decide) (by decide)

end Cert.KernelIdeal.Chain

end
-- ==== Proof.Region2.lean ====
/-
  The second dense stage as the pipeline leaves it: point t of the grid stages rows 5000·t … 5000·t+4999 of the
  node array, the body computes relu (rows · W₁ + b₁) · W₂ + b₂ on them (the format changes before the two
  matrix products are the identity on the extended reals), and writes the block back; every row is in exactly
  one block, so the output array ends holding the dense stage of the whole input array.

  In order: the matrix product into a zero accumulator read at one entry as the sum over the contracted
  coordinate; the body's result at one entry of the staged block; each window's block at a point as entries of
  its array (the row windows at rows 5000·t + p, the weight and bias windows whole); what a point writes back
  as a block of the dense stage; the blocks cover the array.
-/
import proofs.«400410_j4037269259025_1_alg».proof.Proof.Gen.KernelIdeal.Frame
import proofs.«400410_j4037269259025_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## The matrix product at an index -/

/-- Row coordinate of the left operand's index: the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Column coordinate of the left operand's index: the contraction coordinate. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Row coordinate of the right operand's index: the contraction coordinate. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Column coordinate of the right operand's index: the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times a square matrix into the zero accumulator, at entry (p, q): ∑_k l[p,k] · r[k,q]. -/
theorem matmul_at {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A row of 128 entries laid over every row of the block, at entry (p, q): the row's entry q. -/
theorem bias_at (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-! ## The body's arithmetic at an index -/

/-- The hidden layer of the staged rows, at row p and unit k: relu (∑_j x[p,j] · W₁[j,k] + b₁[k]). -/
theorem hidden_at (x0 : Vec Ideal S5000x128 .f32) (w1 : Vec Ideal S128x128 .f32) (b1 : Vec Ideal S128 .f32) (p : Fin 5000) (k : Fin 128) :
    maximumf (addf (matmul dot_S5000x128_S128x128_S5000x128_1_0_0_1_n_n none
          (truncf .bf16 (shapeCast S5000x128 x0 shapeCasts_S5000x128_S5000x128) bitsLt_bf16_f32) (truncf .bf16 w1 bitsLt_bf16_f32)
          (constant (F := Ideal) S5000x128 .f32 0x00000000#32))
        (broadcastTo S5000x128 (shapeCast S1x128 b1 shapeCasts_S128_S1x128) broadcasts_S1x128_S5000x128))
      (broadcast S5000x128 (Scalar.ofBits (F := Ideal) .f32 0x00000000#32)) (ix2 p k)
      = max ((∑ j : Fin 128, x0 (ix2 p j) * w1 (ix2 j k)) + b1 (ix1 k)) 0 := by
  rw [maximumf_apply, addf_apply, matmul_at, bias_at, broadcast_apply, shapeCast_self]
  show max _ (Ideal.ofBits .f32 0x00000000#32) = _
  rw [Ideal.ofBits_zero_f32]
  rfl

/-- The body's result on the staged rows, at row p and feature q:
    ∑_k relu (∑_j x[p,j] · W₁[j,k] + b₁[k]) · W₂[k,q] + b₂[q]. -/
theorem pay_at (x0 : Vec Ideal S5000x128 .f32) (w1 : Vec Ideal S128x128 .f32) (b1 : Vec Ideal S128 .f32)
    (w2 : Vec Ideal S128x128 .f32) (b2 : Vec Ideal S128 .f32) (p : Fin 5000) (q : Fin 128) :
    k2_pay1 (F := Ideal) x0 w1 b1 w2 b2 (ix2 p q)
      = (∑ k : Fin 128, max ((∑ j : Fin 128, x0 (ix2 p j) * w1 (ix2 j k)) + b1 (ix1 k)) 0 * w2 (ix2 k q)) + b2 (ix1 q) := by
  unfold k2_pay1
  rw [addf_apply, matmul_at, bias_at]
  refine congrArg (· + b2 (ix1 q)) (Finset.sum_congr rfl fun k _ => ?_)
  rw [truncf_apply, truncf_apply, hidden_at]

/-! ## The blocks of the six windows -/

theorem zero2 : (![0, 0] : Fin 2 → Nat) = fun _ => 0 := funext fun a => by fin_cases a <;> rfl
theorem zero1 : (![0] : Fin 1 → Nat) = fun _ => 0 := funext fun a => by fin_cases a; rfl

/-- The block indices over the grid: the row windows (the staged rows and the result) sit at block (t, 0) at
    point t, the weight and bias windows at block 0 throughout. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row p of point t's block is row 5000·t + p of the node array. -/
def rowOf (t : Fin cfg2.N) (p : Fin 5000) : Fin 100000 :=
  ⟨5000 * t.val + p.val, by have ht := t.isLt; have hN : cfg2.N = 20 := N_2; omega⟩

/-- The staged rows at point t: entry (p, j) of the block is entry (5000·t + p, j) of the input array. -/
theorem rows_at (c : Dev nD) (t : Fin cfg2.N) (p : Fin 5000) (j : Fin 128) :
    iblk2 (F := Ideal) V c 0 t (ix2 p j) = (V c main_v71 : S100000x128.Idx → Elt Ideal .f32) (ix2 (rowOf t p) j) := by
  obtain ⟨e0, e1, -⟩ := idx_facts t
  show (V c main_v71 : S100000x128.Idx → Elt Ideal .f32) (((cfg2.win 0).blk t).view.emb (ix2 p j)) = _
  refine congrArg _ (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * j.val = j.val; omega

/-- The second weight matrix's window holds the whole matrix at every point. -/
theorem w1_at (c : Dev nD) (t : Fin cfg2.N) (j k : Fin 128) :
    iblk2 (F := Ideal) V c 1 t (ix2 j k) = (V c main_arg10 : S128x128.Idx → Elt Ideal .f32) (ix2 j k) := by
  obtain ⟨-, -, e0, e1, -⟩ := idx_facts t
  show (V c main_arg10 : S128x128.Idx → Elt Ideal .f32) (((cfg2.win 1).blk t).view.emb (ix2 j k)) = _
  refine congrArg _ (funext fun a => Fin.ext ?_)
  match a with
  | ⟨0, _⟩ => show win2_1.index t (0 : Fin 2) * 128 + 1 * j.val = j.val; omega
  | ⟨1, _⟩ => show win2_1.index t (1 : Fin 2) * 128 + 1 * k.val = k.val; omega

/-- The second bias row's window holds the whole row at every point. -/
theorem b1_at (c : Dev nD) (t : Fin cfg2.N) (k : Fin 128) :
    iblk2 (F := Ideal) V c 2 t (ix1 k) = (V c main_arg11 : S128.Idx → Elt Ideal .f32) (ix1 k) := by
  obtain ⟨-, -, -, -, e0, -⟩ := idx_facts t
  show (V c main_arg11 : S128.Idx → Elt Ideal .f32) (((cfg2.win 2).blk t).view.emb (ix1 k)) = _
  refine congrArg _ (funext fun a => Fin.ext ?_)
  match a with
  | ⟨0, _⟩ => show win2_2.index t (0 : Fin 1) * 128 + 1 * k.val = k.val; omega

/-- The second weight matrix's window holds the whole matrix at every point. -/
theorem w2_at (c : Dev nD) (t : Fin cfg2.N) (k q : Fin 128) :
    iblk2 (F := Ideal) V c 3 t (ix2 k q) = (V c main_arg12 : S128x128.Idx → Elt Ideal .f32) (ix2 k q) := by
  obtain ⟨-, -, -, -, -, e0, e1, -⟩ := idx_facts t
  show (V c main_arg12 : S128x128.Idx → Elt Ideal .f32) (((cfg2.win 3).blk t).view.emb (ix2 k q)) = _
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The second bias row's window holds the whole row at every point. -/
theorem b2_at (c : Dev nD) (t : Fin cfg2.N) (q : Fin 128) :
    iblk2 (F := Ideal) V c 4 t (ix1 q) = (V c main_arg13 : S128.Idx → Elt Ideal .f32) (ix1 q) := by
  obtain ⟨-, -, -, -, -, -, -, e0, -⟩ := idx_facts t
  show (V c main_arg13 : S128.Idx → Elt Ideal .f32) (((cfg2.win 4).blk t).view.emb (ix1 q)) = _
  refine congrArg _ (funext fun a => Fin.ext ?_)
  match a with
  | ⟨0, _⟩ => show win2_4.index t (0 : Fin 1) * 128 + 1 * q.val = q.val; omega

/-- Entry (p, q) of the result's block at point t is entry (5000·t + p, q) of the result array. -/
theorem out_at (t : Fin cfg2.N) (p : Fin 5000) (q : Fin 128) :
    (((cfg2.win 5).blk t).view.emb (ix2 p q) : S100000x128.Idx) = ix2 (rowOf t p) q := by
  obtain ⟨-, -, -, -, -, -, -, -, e0, e1⟩ := idx_facts t
  refine funext fun a => Fin.ext ?_
  match a with
  | ⟨0, _⟩ => show win2_5.index t (0 : Fin 2) * 5000 + 1 * p.val = 5000 * t.val + p.val; omega
  | ⟨1, _⟩ => show win2_5.index t (1 : Fin 2) * 128 + 1 * q.val = q.val; omega

/-! ## What each point writes back, and the array after the run -/

/-- What point t writes back is block t of the dense stage of the whole input array. -/
theorem flushed_eq (c : Dev nD) (t : Fin cfg2.N) :
    (dat2 (F := Ideal) V c).flushed 5 t = ((cfg2.win 5).blk t).view.read (Elt Ideal)
      (Cert.Spec.mlp (V c main_v71) (V c main_arg10) (V c main_arg11) (V c main_arg12) (V c main_arg13)) := by
  show (cfg2.win 5).cut (grid2.coords t) ((dat2 V c).after 5 t) = _
  rw [after2_5]
  unfold out2_5
  rw [View.canon_unit_zero zero2]
  simp only [View.ld_unit_zero (S := S5000x128) zero2, View.ld_unit_zero (S := S128x128) zero2, View.ld_unit_zero (S := S128) zero1]
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = Cert.Spec.mlp (V c main_v71) (V c main_arg10) (V c main_arg11) (V c main_arg12) (V c main_arg13) (((cfg2.win 5).blk t).view.emb (ix2 p q))
  rw [pay_at, out_at, b2_at]
  show _ = Cert.Spec.mlpAt (V c main_v71) (V c main_arg10) (V c main_arg11) (V c main_arg12) (V c main_arg13) (rowOf t p) q
  unfold Cert.Spec.mlpAt Cert.Spec.hidden
  refine congrArg (· + _) (Finset.sum_congr rfl fun k _ => ?_)
  rw [w2_at, b1_at]
  refine congrArg (fun s => max (s + _) 0 * _) (Finset.sum_congr rfl fun j _ => ?_)
  rw [rows_at, w1_at]

/-- An index of the result array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole (Pipeline.arrRef spec2 5)).slice (win2_5.rect t)).set ↔ _
  rw [View.set_slice_whole, Rect.mem_set_unit]
  exact Iff.rfl

/-- Every row is in some point's block: row n in that of point n / 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  let t : Fin cfg2.N := ⟨(i 0).val / 5000, by omega⟩
  obtain ⟨-, -, -, -, -, -, -, -, e0, e1⟩ := idx_facts t
  have ht : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The output array of the second dense region after its run, as a function of the region's input arrays. -/
theorem value (c : Dev nD) :
    (dat2 (F := Ideal) V c).arrAt 5 cfg2.N
      = Cert.Spec.mlp (V c main_v71) (V c main_arg10) (V c main_arg11) (V c main_arg12) (V c main_arg13) :=
  (dat2 (F := Ideal) V c).arrAt_eq_of_cover 5
    (Cert.Spec.mlp (V c main_v71) (V c main_arg10) (V c main_arg11) (V c main_arg12) (V c main_arg13))
    (fun t _ => flushed_eq V c t) cover

end Cert.KernelIdeal.Region2

end
-- ==== Proof.Region3.lean ====
/-
  The last stage as the pipeline leaves it: as the first normalisation stage, with the residual average
  (normalised + residual row) · ½ before the relu; every row is in exactly one block.
-/
import proofs.«400410_j4037269259025_1_alg».proof.Proof.Gen.KernelIdeal.Frame
import proofs.«400410_j4037269259025_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)

open scoped BigOperators

variable (V : (c : Dev nD) → (b : Ref sig .tc) → Buf (Elt Ideal) ((c : Thread nD τ).loc b))

/-! ## Layout operations of a keepdims column, read at coordinates -/

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at one entry -/

/-- Column 0 of the 64×2 table, laid out as a row `[1, 64]`, reads the table at `(q, 0)`. -/
theorem col0_apply (tab : FVec Ideal S64x2 .f32) (u : Fin 1) (q : Fin 64) :
    shapeCast S1x64 (shapeCast S64 (extractStridedSlice S64x1 ![0, 0] tab slices_S64x2_o0_0_S64x1) shapeCasts_S64x1_S64)
        shapeCasts_S64_S1x64 (ix2 u q) = tab (ix2 q (0 : Fin 2)) := by
  refine (shapeCast_a_1a_apply _ _ u q).trans ?_
  refine (shapeCast_a1_a_apply _ _ q).trans ?_
  exact slice2_axis1_apply 0 tab _ q (0 : Fin 1) (0 : Fin 2) rfl

/-- Column 1 of the table likewise reads the table at `(q, 1)`. -/
theorem col1_apply (tab : FVec Ideal S64x2 .f32) (u : Fin 1) (q : Fin 64) :
    shapeCast S1x64 (shapeCast S64 (extractStridedSlice S64x1 ![0, 1] tab slices_S64x2_o0_1_S64x1) shapeCasts_S64x1_S64)
        shapeCasts_S64_S1x64 (ix2 u q) = tab (ix2 q (1 : Fin 2)) := by
  refine (shapeCast_a_1a_apply _ _ u q).trans ?_
  refine (shapeCast_a1_a_apply _ _ q).trans ?_
  exact slice2_axis1_apply 1 tab _ q (0 : Fin 1) (1 : Fin 2) rfl

/-- The lane sum, at row `r`, of the membership block times a row `[1, 64]` broadcast along the rows:
    `∑ q, oh[r, q] · row[0, q]`. -/
theorem laneSum_apply (oh : FVec Ideal S5000x64 .f32) (row : FVec Ideal S1x64 .f32) (r : Fin 5000) :
    multiReduction (F := Ideal) .add [1] S5000 (mulf oh (broadcastTo S5000x64 row broadcasts_S1x64_S5000x64))
        0x00000000#32 reduces_S5000x64_S5000 (.inl rfl) rfl (ix1 r)
      = ∑ q : Fin 64, oh (ix2 r q) * row (ix2 (0 : Fin 1) q) := by
  refine (Ideal.multiReduction_add_single _ 0x00000000#32 reduces_S5000x64_S5000 (.inl rfl) rfl (ix1 r)).trans ?_
  show (∑ q : Fin 64, _) = _
  refine Finset.sum_congr rfl fun q _ => ?_
  have hl : reduces_S5000x64_S5000.lift (ix1 r) q = ix2 r q := by
    funext a; apply Fin.ext
    match a with
    | ⟨0, _⟩ => rfl
    | ⟨1, _⟩ => rfl
  rw [hl, mulf_apply, broadcastTo_1b_ab_apply]

/-- A per-row statistic `[5000]`, reshaped to a column and broadcast along the 128 lanes, reads the statistic of the row. -/
theorem rowStat_apply (s : FVec Ideal S5000 .f32) (r : Fin 5000) (cc : Fin 128) :
    broadcastTo S5000x128 (shapeCast S5000x1 s shapeCasts_S5000_S5000x1) broadcasts_S5000x1_S5000x128 (ix2 r cc)
      = s (ix1 r) := by
  refine (broadcastTo_a1_ab_apply _ _ r cc).trans ?_
  exact shapeCast_a_a1_apply _ _ r (0 : Fin 1)

/-- A 128-vector, reshaped to a row and broadcast along the 5000 rows, reads the vector at the lane. -/
theorem laneVec_apply (g : FVec Ideal S128 .f32) (r : Fin 5000) (cc : Fin 128) :
    broadcastTo S5000x128 (shapeCast S1x128 g shapeCasts_S128_S1x128) broadcasts_S1x128_S5000x128 (ix2 r cc)
      = g (ix1 cc) := by
  refine (broadcastTo_1b_ab_apply _ _ r cc).trans ?_
  exact shapeCast_a_1a_apply _ _ (0 : Fin 1) cc

/-- THE BODY AT ONE ENTRY: row `r`, lane `cc` of what the body stores is
    relu (((x[r,cc] − ∑_q oh[r,q]·tab[q,0]) · (∑_q oh[r,q]·tab[q,1]) · γ[cc] + β[cc] + res[r,cc]) · ½),
    the one half kept as its binary word. -/
theorem pay_apply (x : FVec Ideal S5000x128 .f32) (oh : FVec Ideal S5000x64 .f32) (tab : FVec Ideal S64x2 .f32)
    (γ β : FVec Ideal S128 .f32) (res : FVec Ideal S5000x128 .f32) (r : Fin 5000) (cc : Fin 128) :
    k3_pay1 (F := Ideal) x oh tab γ β res (ix2 r cc)
      = max (((((x (ix2 r cc) - ∑ q : Fin 64, oh (ix2 r q) * tab (ix2 q (0 : Fin 2)))
          * (∑ q : Fin 64, oh (ix2 r q) * tab (ix2 q (1 : Fin 2)))) * γ (ix1 cc) + β (ix1 cc)) + res (ix2 r cc))
          * Ideal.ofBits .f32 0x3F000000#32) 0 := by
  unfold k3_pay1
  simp only [shapeCast_self]
  rw [maximumf_apply, mulf_apply, addf_apply, addf_apply, mulf_apply, mulf_apply, subf_apply, broadcast_apply,
    broadcast_apply, laneVec_apply, laneVec_apply, rowStat_apply, rowStat_apply, laneSum_apply, laneSum_apply]
  simp only [col0_apply, col1_apply]
  exact congrArg _ Ideal.ofBits_zero_f32

/-! ## What a point writes back -/

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the four row-blocked windows sit at block (t, 0); the table and the two
    128-vectors are whole arrays at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 1) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The node window's block at point `t` holds rows `5000·t …` of the node array. -/
theorem nodeBlk_apply (c : Dev nD) (t : Fin cfg3.N) (r : Fin 5000) (cc : Fin 128) (n : Fin 100000)
    (hn : n.val = t.val * 5000 + r.val) :
    (iblk3 V c 0 t : FVec Ideal S5000x128 .f32) (ix2 r cc) = (V c main_v72 : S100000x128.Idx → EReal) (ix2 n cc) := by
  obtain ⟨e0, e1, -⟩ := idx_facts t
  unfold iblk3
  rw [View.read_apply]
  show V c main_v72 _ = V c main_v72 _
  congr 1
  funext a; apply Fin.ext
  match a with
  | ⟨0, _⟩ => show win3_0.index t (0 : Fin 2) * 5000 + 1 * r.val = n.val; rw [e0, hn]; omega
  | ⟨1, _⟩ => show win3_0.index t (1 : Fin 2) * 128 + 1 * cc.val = cc.val; rw [e1]; omega

/-- The membership window's block at point `t` holds rows `5000·t …` of the membership matrix. -/
theorem hotBlk_apply (c : Dev nD) (t : Fin cfg3.N) (r : Fin 5000) (q : Fin 64) (n : Fin 100000)
    (hn : n.val = t.val * 5000 + r.val) :
    (iblk3 V c 1 t : FVec Ideal S5000x64 .f32) (ix2 r q) = (V c main_v10 : S100000x64.Idx → EReal) (ix2 n q) := by
  obtain ⟨-, -, e0, e1, -⟩ := idx_facts t
  unfold iblk3
  rw [View.read_apply]
  show V c main_v10 _ = V c main_v10 _
  congr 1
  funext a; apply Fin.ext
  match a with
  | ⟨0, _⟩ => show win3_1.index t (0 : Fin 2) * 5000 + 1 * r.val = n.val; rw [e0, hn]; omega
  | ⟨1, _⟩ => show win3_1.index t (1 : Fin 2) * 64 + 1 * q.val = q.val; rw [e1]; omega

/-- The table's window holds the whole 64×2 table at every point. -/
theorem tabBlk_apply (c : Dev nD) (t : Fin cfg3.N) (q : Fin 64) (k : Fin 2) :
    (iblk3 V c 2 t : FVec Ideal S64x2 .f32) (ix2 q k) = (V c main_v99 : S64x2.Idx → EReal) (ix2 q k) := by
  obtain ⟨-, -, -, -, e0, e1, -⟩ := idx_facts t
  unfold iblk3
  rw [View.read_apply]
  show V c main_v99 _ = V c main_v99 _
  congr 1
  funext a; apply Fin.ext
  match a with
  | ⟨0, _⟩ => show win3_2.index t (0 : Fin 2) * 64 + 1 * q.val = q.val; rw [e0]; omega
  | ⟨1, _⟩ => show win3_2.index t (1 : Fin 2) * 2 + 1 * k.val = k.val; rw [e1]; omega

/-- The scale vector's window holds the whole vector at every point. -/
theorem gammaBlk_apply (c : Dev nD) (t : Fin cfg3.N) (cc : Fin 128) :
    (iblk3 V c 3 t : FVec Ideal S128 .f32) (ix1 cc) = (V c main_arg16 : S128.Idx → EReal) (ix1 cc) := by
  obtain ⟨-, -, -, -, -, -, e0, -⟩ := idx_facts t
  unfold iblk3
  rw [View.read_apply]
  show V c main_arg16 _ = V c main_arg16 _
  congr 1
  funext a; apply Fin.ext
  match a with
  | ⟨0, _⟩ => show win3_3.index t (0 : Fin 1) * 128 + 1 * cc.val = cc.val; rw [e0]; omega

/-- The shift vector's window holds the whole vector at every point. -/
theorem betaBlk_apply (c : Dev nD) (t : Fin cfg3.N) (cc : Fin 128) :
    (iblk3 V c 4 t : FVec Ideal S128 .f32) (ix1 cc) = (V c main_arg17 : S128.Idx → EReal) (ix1 cc) := by
  obtain ⟨-, -, -, -, -, -, -, e0, -⟩ := idx_facts t
  unfold iblk3
  rw [View.read_apply]
  show V c main_arg17 _ = V c main_arg17 _
  congr 1
  funext a; apply Fin.ext
  match a with
  | ⟨0, _⟩ => show win3_4.index t (0 : Fin 1) * 128 + 1 * cc.val = cc.val; rw [e0]; omega

/-- The residual window's block at point `t` holds rows `5000·t …` of the residual array. -/
theorem resBlk_apply (c : Dev nD) (t : Fin cfg3.N) (r : Fin 5000) (cc : Fin 128) (n : Fin 100000)
    (hn : n.val = t.val * 5000 + r.val) :
    (iblk3 V c 5 t : FVec Ideal S5000x128 .f32) (ix2 r cc) = (V c main_arg0 : S100000x128.Idx → EReal) (ix2 n cc) := by
  obtain ⟨-, -, -, -, -, -, -, -, e0, e1, -⟩ := idx_facts t
  unfold iblk3
  rw [View.read_apply]
  show V c main_arg0 _ = V c main_arg0 _
  congr 1
  funext a; apply Fin.ext
  match a with
  | ⟨0, _⟩ => show win3_5.index t (0 : Fin 2) * 5000 + 1 * r.val = n.val; rw [e0, hn]; omega
  | ⟨1, _⟩ => show win3_5.index t (1 : Fin 2) * 128 + 1 * cc.val = cc.val; rw [e1]; omega

/-- The stage's result at an index written by coordinates. -/
theorem lnResRelu_apply (g : Cert.Spec.Nodes.Idx → EReal) (oh : Cert.Spec.Hot.Idx → EReal) (tab : Cert.Spec.Tab.Idx → EReal)
    (γ β : Cert.Spec.Row.Idx → EReal) (res : Cert.Spec.Nodes.Idx → EReal) (n : Fin 100000) (cc : Fin 128) :
    Cert.Spec.lnResRelu g oh tab γ β res (ix2 n cc)
      = max (((((g (ix2 n cc) - ∑ q : Fin 64, oh (ix2 n q) * tab (ix2 q (0 : Fin 2)))
          * (∑ q : Fin 64, oh (ix2 n q) * tab (ix2 q (1 : Fin 2)))) * γ (ix1 cc) + β (ix1 cc)) + res (ix2 n cc))
          * Ideal.ofBits .f32 0x3F000000#32) 0 := rfl

/-- WHAT POINT `t` WRITES BACK is block `t` of the stage's result on the arrays as the region finds them. -/
theorem flushed_eq (c : Dev nD) (t : Fin cfg3.N) :
    (dat3 (F := Ideal) V c).flushed 6 t = ((cfg3.win 6).blk t).view.read (Elt Ideal)
      (Cert.Spec.lnResRelu (V c main_v72) (V c main_v10) (V c main_v99) (V c main_arg16) (V c main_arg17) (V c main_arg0)) := by
  show (cfg3.win 6).cut (grid3.coords t) ((dat3 V c).after 6 t) = _
  rw [after3_6]
  unfold out3_6
  rw [View.canon_unit_zero hz2]
  simp only [View.ld_unit_zero (S := S5000x128) hz2, View.ld_unit_zero (S := S5000x64) hz2,
    View.ld_unit_zero (S := S64x2) hz2, View.ld_unit_zero (S := S128) hz1]
  funext j
  obtain ⟨r, cc, rfl⟩ : ∃ (r : Fin 5000) (cc : Fin 128), j = ix2 r cc := ⟨j 0, j 1, eq_ix2 j⟩
  have ht : t.val < 20 := lt_of_lt_of_eq t.isLt N_3
  obtain ⟨-, -, -, -, -, -, -, -, -, -, e0, e1⟩ := idx_facts t
  have hi : ((cfg3.win 6).blk t).view.emb (ix2 r cc)
      = (ix2 (⟨t.val * 5000 + r.val, by omega⟩ : Fin 100000) cc : S100000x128.Idx) := by
    funext a; apply Fin.ext
    match a with
    | ⟨0, _⟩ => show win3_6.index t (0 : Fin 2) * 5000 + 1 * r.val = t.val * 5000 + r.val; rw [e0]; omega
    | ⟨1, _⟩ => show win3_6.index t (1 : Fin 2) * 128 + 1 * cc.val = cc.val; rw [e1]; omega
  show k3_pay1 (F := Ideal) (iblk3 V c 0 t) (iblk3 V c 1 t) (iblk3 V c 2 t) (iblk3 V c 3 t) (iblk3 V c 4 t) (iblk3 V c 5 t)
      (ix2 r cc)
    = Cert.Spec.lnResRelu (V c main_v72) (V c main_v10) (V c main_v99) (V c main_arg16) (V c main_arg17) (V c main_arg0)
        (((cfg3.win 6).blk t).view.emb (ix2 r cc))
  rw [hi, lnResRelu_apply, pay_apply]
  rw [nodeBlk_apply V c t r cc ⟨t.val * 5000 + r.val, by omega⟩ rfl,
    resBlk_apply V c t r cc ⟨t.val * 5000 + r.val, by omega⟩ rfl, gammaBlk_apply, betaBlk_apply]
  simp only [hotBlk_apply V c t r _ ⟨t.val * 5000 + r.val, by omega⟩ rfl, tabBlk_apply]

/-! ## From the blocks to the array -/

/-- An index of the result array is in point `t`'s block iff each coordinate is in the block's range on its axis. -/
theorem mem_blk (t : Fin cfg3.N) (i : S100000x128.Idx) :
    i ∈ ((cfg3.win 6).blk t).view.set
      ↔ ∀ a : Fin 2, win3_6.index t a * S5000x128.size a ≤ (i a).val
          ∧ (i a).val < win3_6.index t a * S5000x128.size a + S5000x128.size a := by
  show i ∈ ((View.whole main_v100).slice (win3_6.rect t)).set ↔ _
  rw [View.set_slice_whole, Rect.mem_set_unit]
  exact Iff.rfl

/-- Every row is in a block: row `n` is in the block of point `n / 5000`. -/
theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  let t : Fin cfg3.N := ⟨(i 0).val / 5000, by rw [show cfg3.N = 20 from N_3]; omega⟩
  have htv : t.val = (i 0).val / 5000 := rfl
  obtain ⟨-, -, -, -, -, -, -, -, -, -, e0, e1⟩ := idx_facts t
  refine ⟨t, flush3_6 t, ?_⟩
  rw [mem_blk]
  intro a
  match a with
  | ⟨0, _⟩ =>
    show win3_6.index t (0 : Fin 2) * 5000 ≤ (i 0).val ∧ (i 0).val < win3_6.index t (0 : Fin 2) * 5000 + 5000
    rw [e0, htv]; omega
  | ⟨1, _⟩ =>
    show win3_6.index t (1 : Fin 2) * 128 ≤ (i 1).val ∧ (i 1).val < win3_6.index t (1 : Fin 2) * 128 + 128
    rw [e1]; omega

/-- The output array of the last region after its run, as a function of the region's input arrays. -/
theorem value (c : Dev nD) :
    (dat3 (F := Ideal) V c).arrAt 6 cfg3.N
      = Cert.Spec.lnResRelu (V c main_v72) (V c main_v10) (V c main_v99) (V c main_arg16) (V c main_arg17) (V c main_arg0) :=
  (dat3 (F := Ideal) V c).arrAt_eq_of_cover 6
    (Cert.Spec.lnResRelu (V c main_v72) (V c main_v10) (V c main_v99) (V c main_arg16) (V c main_arg17) (V c main_arg0))
    (fun t _ => flushed_eq V c t) cover

end Cert.KernelIdeal.Region3

end
-- ==== Proof.KChainB.lean ====
/-
  The program's buffers read back through its second half: from the first normalisation stage the host operations
  leave (1 + eps₂) · out₁ + the summed messages in the second dense region's input; that region leaves the dense
  stage; the host operations after it leave the second table of statistics; the last region leaves the result.
-/
import proofs.«400410_j4037269259025_1_alg».proof.Proof.KChainA
import proofs.«400410_j4037269259025_1_alg».proof.Proof.Region2
import proofs.«400410_j4037269259025_1_alg».proof.Proof.Region3

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The second dense region's input: (1 + eps₂) · out₁ + the summed messages. -/
def h2 (c : Dev nD) : Cert.Spec.Nodes.Idx → EReal :=
  Stage.pre (F := Ideal) (o1 m c) (m ((c.tc : Thread nD τ).loc main_arg1))
    (m ((c.tc : Thread nD τ).loc main_arg2)) (m ((c.tc : Thread nD τ).loc main_arg5))

/-- The second dense stage. -/
def g2 (c : Dev nD) : Cert.Spec.Nodes.Idx → EReal :=
  Cert.Spec.mlp (h2 m c) (m ((c.tc : Thread nD τ).loc main_arg10)) (m ((c.tc : Thread nD τ).loc main_arg11))
    (m ((c.tc : Thread nD τ).loc main_arg12)) (m ((c.tc : Thread nD τ).loc main_arg13))

/-- The second table of statistics. -/
def t2 (c : Dev nD) : Cert.Spec.Tab.Idx → EReal := Stage.table (F := Ideal) (g2 m c) (m ((c.tc : Thread nD τ).loc main_arg3))

/-- The program's result. -/
def res (c : Dev nD) : Cert.Spec.Nodes.Idx → EReal :=
  Cert.Spec.lnResRelu (g2 m c) (oh m c) (t2 m c) (m ((c.tc : Thread nD τ).loc main_arg16)) (m ((c.tc : Thread nD τ).loc main_arg17))
    (m ((c.tc : Thread nD τ).loc main_arg0))

/-! ## The two host stretches of this half, over any contents V of the buffers before them -/

section Stretches

variable (V : Valuation τ sig (Elt Ideal))

/-- The operations between the first normalisation region and the second dense region gather the rows of the
    normalised array at the wrapped source indices, add the edge features, rectify, sum into the target rows and add
    (1 + eps₂) times the normalised array: when the two flat-row buffers hold the rows of the edge list ei, the
    dense region's input buffer ends holding Stage.pre of the normalised array, ei, the edge features and eps₂. -/
theorem mid_v71 (ei : (⟨S2x1600000, .i32⟩ : BufTy).Contents (Elt Ideal))
    (h1 : V (Proc.devRef .tc main_v1) = Stage.src (F := Ideal) ei) (h3 : V (Proc.devRef .tc main_v3) = Stage.dst (F := Ideal) ei) :
    StableHlo.after hostOps2_2 (StableHlo.after hostOps2_1 (StableHlo.after hostOps2 V)) (Proc.devRef .tc main_v71)
      = Stage.pre (F := Ideal) (V (Proc.devRef .tc main_v55)) ei (V (Proc.devRef .tc main_arg2)) (V (Proc.devRef .tc main_arg5)) := by
  after_results_simp
  simp only [StableHlo.TRef.ofBuf, StableHlo.TRef.toBuf, cast_eq]
  rw [h1, h3]
  unfold Stage.pre Stage.agg Stage.msg Stage.srcCol
  rfl

/-! None of those operations writes a weight, a bias, the membership matrix, the graph ids, the scale, the shift or
    the residual input. -/
theorem mid_arg10 : StableHlo.after hostOps2_2 (StableHlo.after hostOps2_1 (StableHlo.after hostOps2 V)) (Proc.devRef .tc main_arg10)
    = V (Proc.devRef .tc main_arg10) := by after_results_simp
theorem mid_arg11 : StableHlo.after hostOps2_2 (StableHlo.after hostOps2_1 (StableHlo.after hostOps2 V)) (Proc.devRef .tc main_arg11)
    = V (Proc.devRef .tc main_arg11) := by after_results_simp
theorem mid_arg12 : StableHlo.after hostOps2_2 (StableHlo.after hostOps2_1 (StableHlo.after hostOps2 V)) (Proc.devRef .tc main_arg12)
    = V (Proc.devRef .tc main_arg12) := by after_results_simp
theorem mid_arg13 : StableHlo.after hostOps2_2 (StableHlo.after hostOps2_1 (StableHlo.after hostOps2 V)) (Proc.devRef .tc main_arg13)
    = V (Proc.devRef .tc main_arg13) := by after_results_simp
theorem mid_v10 : StableHlo.after hostOps2_2 (StableHlo.after hostOps2_1 (StableHlo.after hostOps2 V)) (Proc.devRef .tc main_v10)
    = V (Proc.devRef .tc main_v10) := by after_results_simp
theorem mid_arg3 : StableHlo.after hostOps2_2 (StableHlo.after hostOps2_1 (StableHlo.after hostOps2 V)) (Proc.devRef .tc main_arg3)
    = V (Proc.devRef .tc main_arg3) := by after_results_simp
theorem mid_arg16 : StableHlo.after hostOps2_2 (StableHlo.after hostOps2_1 (StableHlo.after hostOps2 V)) (Proc.devRef .tc main_arg16)
    = V (Proc.devRef .tc main_arg16) := by after_results_simp
theorem mid_arg17 : StableHlo.after hostOps2_2 (StableHlo.after hostOps2_1 (StableHlo.after hostOps2 V)) (Proc.devRef .tc main_arg17)
    = V (Proc.devRef .tc main_arg17) := by after_results_simp
theorem mid_arg0 : StableHlo.after hostOps2_2 (StableHlo.after hostOps2_1 (StableHlo.after hostOps2 V)) (Proc.devRef .tc main_arg0)
    = V (Proc.devRef .tc main_arg0) := by after_results_simp

/-- The operations between the second dense region and the last region compute, from the dense stage and the graph
    ids, the per-graph counts, means and reciprocal deviations, and lay the last two side by side: the table buffer
    ends holding Stage.table of the dense stage's buffer and the graph ids' buffer. -/
theorem tail_v99 : StableHlo.after hostOps3 V (Proc.devRef .tc main_v99)
    = Stage.table (F := Ideal) (V (Proc.devRef .tc main_v72)) (V (Proc.devRef .tc main_arg3)) := by
  after_results_simp
  unfold Stage.table Stage.inv Stage.mean Stage.cnt Stage.perGraph
  rfl

/-! None of them writes the dense stage, the membership matrix, the scale, the shift or the residual input. -/
theorem tail_v72 : StableHlo.after hostOps3 V (Proc.devRef .tc main_v72) = V (Proc.devRef .tc main_v72) := by after_results_simp
theorem tail_v10 : StableHlo.after hostOps3 V (Proc.devRef .tc main_v10) = V (Proc.devRef .tc main_v10) := by after_results_simp
theorem tail_arg16 : StableHlo.after hostOps3 V (Proc.devRef .tc main_arg16) = V (Proc.devRef .tc main_arg16) := by after_results_simp
theorem tail_arg17 : StableHlo.after hostOps3 V (Proc.devRef .tc main_arg17) = V (Proc.devRef .tc main_arg17) := by after_results_simp
theorem tail_arg0 : StableHlo.after hostOps3 V (Proc.devRef .tc main_arg0) = V (Proc.devRef .tc main_arg0) := by after_results_simp

end Stretches

/-! ## The second dense region's entry: what the host operations before it leave in its input arrays -/

/-- The input rows: (1 + eps₂) · out₁ + the summed messages. -/
theorem W9_v71 (c : Dev nD) : W9 m ρ c (Proc.devRef .tc main_v71) = h2 m c := by
  refine (mid_v71 (W6 m ρ c) (m ((c.tc : Thread nD τ).loc main_arg1)) (W6_v1 m ρ c) (W6_v3 m ρ c)).trans ?_
  rw [W6_v55, W6_arg2, W6_arg5]
  rfl

/-- The weights and biases, and every later input, are as launched; the membership matrix is as the first half left it. -/
theorem W9_arg10 (c : Dev nD) : W9 m ρ c (Proc.devRef .tc main_arg10) = m ((c.tc : Thread nD τ).loc main_arg10) :=
  (mid_arg10 (W6 m ρ c)).trans (W6_arg10 m ρ c)
theorem W9_arg11 (c : Dev nD) : W9 m ρ c (Proc.devRef .tc main_arg11) = m ((c.tc : Thread nD τ).loc main_arg11) :=
  (mid_arg11 (W6 m ρ c)).trans (W6_arg11 m ρ c)
theorem W9_arg12 (c : Dev nD) : W9 m ρ c (Proc.devRef .tc main_arg12) = m ((c.tc : Thread nD τ).loc main_arg12) :=
  (mid_arg12 (W6 m ρ c)).trans (W6_arg12 m ρ c)
theorem W9_arg13 (c : Dev nD) : W9 m ρ c (Proc.devRef .tc main_arg13) = m ((c.tc : Thread nD τ).loc main_arg13) :=
  (mid_arg13 (W6 m ρ c)).trans (W6_arg13 m ρ c)
theorem W9_arg3 (c : Dev nD) : W9 m ρ c (Proc.devRef .tc main_arg3) = m ((c.tc : Thread nD τ).loc main_arg3) :=
  (mid_arg3 (W6 m ρ c)).trans (W6_arg3 m ρ c)
theorem W9_arg16 (c : Dev nD) : W9 m ρ c (Proc.devRef .tc main_arg16) = m ((c.tc : Thread nD τ).loc main_arg16) :=
  (mid_arg16 (W6 m ρ c)).trans (W6_arg16 m ρ c)
theorem W9_arg17 (c : Dev nD) : W9 m ρ c (Proc.devRef .tc main_arg17) = m ((c.tc : Thread nD τ).loc main_arg17) :=
  (mid_arg17 (W6 m ρ c)).trans (W6_arg17 m ρ c)
theorem W9_arg0 (c : Dev nD) : W9 m ρ c (Proc.devRef .tc main_arg0) = m ((c.tc : Thread nD τ).loc main_arg0) :=
  (mid_arg0 (W6 m ρ c)).trans (W6_arg0 m ρ c)
theorem W9_v10 (c : Dev nD) : W9 m ρ c (Proc.devRef .tc main_v10) = oh m c :=
  (mid_v10 (W6 m ρ c)).trans (W6_v10 m ρ c)

/-! ## The second dense region's exit -/

/-- The output array holds the dense stage of the region's input. -/
theorem W10_v72 (c : Dev nD) : W10 m ρ c (Proc.devRef .tc main_v72) = g2 m c := by
  refine ((W10_arr m ρ c 5).trans (Region2.value (V9 m ρ) c)).trans ?_
  unfold g2
  exact congr (congr (congr (congr (congrArg Cert.Spec.mlp (W9_v71 m ρ c)) (W9_arg10 m ρ c)) (W9_arg11 m ρ c))
    (W9_arg12 m ρ c)) (W9_arg13 m ρ c)

/-- The region touches none of the later inputs. -/
theorem W10_arg3 (c : Dev nD) : W10 m ρ c (Proc.devRef .tc main_arg3) = m ((c.tc : Thread nD τ).loc main_arg3) :=
  (W10_of_ne m ρ c main_arg3 (by decide)).trans (W9_arg3 m ρ c)
theorem W10_arg16 (c : Dev nD) : W10 m ρ c (Proc.devRef .tc main_arg16) = m ((c.tc : Thread nD τ).loc main_arg16) :=
  (W10_of_ne m ρ c main_arg16 (by decide)).trans (W9_arg16 m ρ c)
theorem W10_arg17 (c : Dev nD) : W10 m ρ c (Proc.devRef .tc main_arg17) = m ((c.tc : Thread nD τ).loc main_arg17) :=
  (W10_of_ne m ρ c main_arg17 (by decide)).trans (W9_arg17 m ρ c)
theorem W10_arg0 (c : Dev nD) : W10 m ρ c (Proc.devRef .tc main_arg0) = m ((c.tc : Thread nD τ).loc main_arg0) :=
  (W10_of_ne m ρ c main_arg0 (by decide)).trans (W9_arg0 m ρ c)
theorem W10_v10 (c : Dev nD) : W10 m ρ c (Proc.devRef .tc main_v10) = oh m c :=
  (W10_of_ne m ρ c main_v10 (by decide)).trans (W9_v10 m ρ c)

/-! ## The last region's entry -/

/-- The dense stage is still in its buffer. -/
theorem W11_v72 (c : Dev nD) : W11 m ρ c (Proc.devRef .tc main_v72) = g2 m c :=
  (tail_v72 (W10 m ρ c)).trans (W10_v72 m ρ c)

/-- So is the membership matrix. -/
theorem W11_v10 (c : Dev nD) : W11 m ρ c (Proc.devRef .tc main_v10) = oh m c :=
  (tail_v10 (W10 m ρ c)).trans (W10_v10 m ρ c)

/-- The table buffer holds the second table of statistics. -/
theorem W11_v99 (c : Dev nD) : W11 m ρ c (Proc.devRef .tc main_v99) = t2 m c := by
  refine (tail_v99 (W10 m ρ c)).trans ?_
  rw [W10_v72, W10_arg3]
  rfl

/-- The scale, the shift and the residual input are as launched. -/
theorem W11_arg16 (c : Dev nD) : W11 m ρ c (Proc.devRef .tc main_arg16) = m ((c.tc : Thread nD τ).loc main_arg16) :=
  (tail_arg16 (W10 m ρ c)).trans (W10_arg16 m ρ c)
theorem W11_arg17 (c : Dev nD) : W11 m ρ c (Proc.devRef .tc main_arg17) = m ((c.tc : Thread nD τ).loc main_arg17) :=
  (tail_arg17 (W10 m ρ c)).trans (W10_arg17 m ρ c)
theorem W11_arg0 (c : Dev nD) : W11 m ρ c (Proc.devRef .tc main_arg0) = m ((c.tc : Thread nD τ).loc main_arg0) :=
  (tail_arg0 (W10 m ρ c)).trans (W10_arg0 m ρ c)

/-! ## The last region's exit -/

/-- After the last region the result buffer holds the program's result. -/
theorem W12_v100 (c : Dev nD) : W12 m ρ c (Proc.devRef .tc main_v100) = res m c := by
  refine ((W12_arr m ρ c 6).trans (Region3.value (V11 m ρ) c)).trans ?_
  unfold res
  exact congr (congr (congr (congr (congr (congrArg Cert.Spec.lnResRelu (W11_v72 m ρ c)) (W11_v10 m ρ c)) (W11_v99 m ρ c))
    (W11_arg16 m ρ c)) (W11_arg17 m ρ c)) (W11_arg0 m ρ c)

end Cert.KernelIdeal.Chain

end
-- ==== Proof.StagesR.lean ====
/-
  The stages of the reference program, each as one function of its operands: gathering the source rows of the
  edges, adding the edge features, relu, summing into the target rows; the dense stage; the per-graph count, mean
  and reciprocal deviation; their lookup at every node's graph; the normalisation; the last stage.
-/
import proofs.«400410_j4037269259025_1_alg».proof.Proof.Gen.ReferenceIdeal

noncomputable section

namespace Cert.ReferenceIdeal.Stage

open Cert.ReferenceIdeal Cert.ReferenceIdeal.Gen Idealize.ShloMosaic

variable {F : FTy → Type} [FloatOps F]

/-- The first row of the edge list (the source node of every edge), flat. -/
def src (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The second row of the edge list (the target node of every edge), flat. -/
def dst (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The source indices with a negative one moved up by the number of nodes, as a column of start indices. -/
def srcCol (ei : (⟨S2x1600000, .i32⟩ : BufTy).Contents (Elt F)) : (⟨S1600000x1, .i32⟩ : BufTy).Contents (Elt F) :=
  broadcastInDim S1600000x1 ![0] bcast_S1600000_S1600000x1_0
    (select (cmpi .slt (src (F := F) ei) (broadcastInDim S1600000 ![] bcast_S_S1600000 (constantI S_ 32 0#32)))
      (addi (src (F := F) ei) (broadcastInDim S1600000 ![] bcast_S_S1600000 (constantI S_ 32 100000#32))) (src (F := F) ei))

/-- The message of every edge: relu (row of x at the source + the edge's features). -/
def msg (x : (⟨S100000x128, .f32⟩ : BufTy).Contents (Elt F)) (ei : (⟨S2x1600000, .i32⟩ : BufTy).Contents (Elt F))
    (ea : (⟨S1600000x128, .f32⟩ : BufTy).Contents (Elt F)) : (⟨S1600000x128, .f32⟩ : BufTy).Contents (Elt F) :=
  maximumf (addf (Host.gather gather_S100000x128_S1600000x1_S1600000x128_1_0_n_n_0_1_1128 x (srcCol (F := F) ei)) ea)
    (broadcastInDim S1600000x128 ![] bcast_S_S1600000x128 (constant S_ .f32 0x00000000#32))

/-- The messages summed into their target rows. -/
def agg (x : (⟨S100000x128, .f32⟩ : BufTy).Contents (Elt F)) (ei : (⟨S2x1600000, .i32⟩ : BufTy).Contents (Elt F))
    (ea : (⟨S1600000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dst (F := F) ei)) (msg x ei ea)

/-- What the dense stage is applied to: (1 + eps) · x + the summed messages. -/
def pre (x : (⟨S100000x128, .f32⟩ : BufTy).Contents (Elt F)) (ei : (⟨S2x1600000, .i32⟩ : BufTy).Contents (Elt F))
    (ea : (⟨S1600000x128, .f32⟩ : BufTy).Contents (Elt F)) (eps : (⟨S_, .f32⟩ : BufTy).Contents (Elt F)) :
    (⟨S100000x128, .f32⟩ : BufTy).Contents (Elt F) :=
  addf (mulf (broadcastInDim S100000x128 ![] bcast_S_S100000x128 (addf (constant S_ .f32 0x3F800000#32) eps)) x) (agg x ei ea)

/-- A per-node quantity summed over the nodes of each graph. -/
def perGraph (v : (⟨S100000, .f32⟩ : BufTy).Contents (Elt F)) (n2g : (⟨S100000, .i32⟩ : BufTy).Contents (Elt F)) :
    (⟨S64, .f32⟩ : BufTy).Contents (Elt F) :=
  Host.scatterAdd scatter_S64_S100000x1_S100000_n_0_0_1 (broadcastInDim S64 ![] bcast_S_S64 (constant S_ .f32 0x00000000#32))
    (broadcastInDim S100000x1 ![0] bcast_S100000_S100000x1_0 n2g) v

/-- The number of entries of each graph: its node count times 128, at least 1. -/
def cnt (n2g : (⟨S100000, .i32⟩ : BufTy).Contents (Elt F)) : (⟨S64, .f32⟩ : BufTy).Contents (Elt F) :=
  maximumf (mulf (perGraph (broadcastInDim S100000 ![] bcast_S_S100000 (constant S_ .f32 0x3F800000#32)) n2g)
      (broadcastInDim S64 ![] bcast_S_S64 (constant S_ .f32 0x43000000#32)))
    (broadcastInDim S64 ![] bcast_S_S64 (constant S_ .f32 0x3F800000#32))

/-- The mean of each graph's entries. -/
def mean (g : (⟨S100000x128, .f32⟩ : BufTy).Contents (Elt F)) (n2g : (⟨S100000, .i32⟩ : BufTy).Contents (Elt F)) :
    (⟨S64, .f32⟩ : BufTy).Contents (Elt F) :=
  Host.divf (perGraph (Host.reduceAdd g (constant S_ .f32 0x00000000#32) reducesTo_S100000x128_S100000_d1 h_S_) n2g) (cnt (F := F) n2g)

/-- The reciprocal square root of each graph's variance plus the constant. -/
def inv (g : (⟨S100000x128, .f32⟩ : BufTy).Contents (Elt F)) (n2g : (⟨S100000, .i32⟩ : BufTy).Contents (Elt F)) :
    (⟨S64, .f32⟩ : BufTy).Contents (Elt F) :=
  Host.rsqrt (addf (subf (Host.divf (perGraph (Host.reduceAdd (mulf g g) (constant S_ .f32 0x00000000#32) reducesTo_S100000x128_S100000_d1 h_S_) n2g) (cnt (F := F) n2g))
      (mulf (mean g n2g) (mean g n2g))) (broadcastInDim S64 ![] bcast_S_S64 (constant S_ .f32 0x3727C5AC#32)))

/-- A 128-vector repeated on every row. -/
def rows (v : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 v)

/-- relu on the node array. -/
def relu (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- The dense stage: relu (h · W₁ + b₁) · W₂ + b₂. -/
def mlp (h : (⟨S100000x128, .f32⟩ : BufTy).Contents (Elt F)) (W1 : (⟨S128x128, .f32⟩ : BufTy).Contents (Elt F))
    (b1 : (⟨S128, .f32⟩ : BufTy).Contents (Elt F)) (W2 : (⟨S128x128, .f32⟩ : BufTy).Contents (Elt F))
    (b2 : (⟨S128, .f32⟩ : BufTy).Contents (Elt F)) : (⟨S100000x128, .f32⟩ : BufTy).Contents (Elt F) :=
  addf (Host.dotGeneral dot_S100000x128_S128x128_S100000x128_1_0_0_1_n_n none
      (relu (addf (Host.dotGeneral dot_S100000x128_S128x128_S100000x128_1_0_0_1_n_n none h W1) (rows b1))) W2) (rows b2)

/-- The graph ids as a column of start indices, a negative one moved up by 64. -/
def idCol (n2g : (⟨S100000, .i32⟩ : BufTy).Contents (Elt F)) : (⟨S100000x1, .i32⟩ : BufTy).Contents (Elt F) :=
  broadcastInDim S100000x1 ![0] bcast_S100000_S100000x1_0
    (select (cmpi .slt n2g (broadcastInDim S100000 ![] bcast_S_S100000 (constantI S_ 32 0#32)))
      (addi n2g (broadcastInDim S100000 ![] bcast_S_S100000 (constantI S_ 32 64#32))) n2g)

/-- A per-graph statistic looked up at every node's graph and repeated along the node's row. -/
def look (v : (⟨S64, .f32⟩ : BufTy).Contents (Elt F)) (n2g : (⟨S100000, .i32⟩ : BufTy).Contents (Elt F)) :
    (⟨S100000x128, .f32⟩ : BufTy).Contents (Elt F) :=
  broadcastInDim S100000x128 ![0, 1] bcast_S100000x1_S100000x128_0_1
    (broadcastInDim S100000x1 ![0] bcast_S100000_S100000x1_0
      (Host.gather gather_S64_S100000x1_S100000_n_0_n_n_0_1_1 v (idCol (F := F) n2g)))

/-- The normalisation: (g − mean of the node's graph) · its reciprocal deviation · γ + β. -/
def ln (g : (⟨S100000x128, .f32⟩ : BufTy).Contents (Elt F)) (n2g : (⟨S100000, .i32⟩ : BufTy).Contents (Elt F))
    (γ β : (⟨S128, .f32⟩ : BufTy).Contents (Elt F)) : (⟨S100000x128, .f32⟩ : BufTy).Contents (Elt F) :=
  addf (mulf (mulf (subf g (look (mean g n2g) n2g)) (look (inv g n2g) n2g)) (rows γ)) (rows β)

/-- The last stage: relu ((a + x) · ½). -/
def final (a x : (⟨S100000x128, .f32⟩ : BufTy).Contents (Elt F)) : (⟨S100000x128, .f32⟩ : BufTy).Contents (Elt F) :=
  relu (mulf (addf a x) (broadcastInDim S100000x128 ![] bcast_S_S100000x128 (constant S_ .f32 0x3F000000#32)))

end Cert.ReferenceIdeal.Stage

end
-- ==== Proof.RChain.lean ====
/-
  The reference's result is its stages composed: two rounds of message passing, dense stage and normalisation, the
  first rectified, the second averaged with the input and rectified.
-/
import proofs.«400410_j4037269259025_1_alg».proof.Proof.Gen.ReferenceIdeal.Run
import proofs.«400410_j4037269259025_1_alg».proof.Proof.StagesR

set_option maxRecDepth 16384

noncomputable section

namespace Cert.ReferenceIdeal.Chain

open Cert.ReferenceIdeal Cert.ReferenceIdeal.Gen Idealize.ShloMosaic Idealize.ShloMosaic.TcCoe Idealize.SL.Sem

variable {F : FTy → Type} [FloatOps F]

/-- The first round's output: dense stage of (1 + eps₁) · x + messages, normalised, rectified. -/
def out1 (m : (ℓ : Loc nD τ sig) → Buf (Elt F) ℓ) (c : Dev nD) : (⟨S100000x128, .f32⟩ : BufTy).Contents (Elt F) :=
  Stage.relu (Stage.ln (Stage.mlp (Stage.pre (m ((c.tc : Thread nD τ).loc main_arg0)) (m ((c.tc : Thread nD τ).loc main_arg1))
        (m ((c.tc : Thread nD τ).loc main_arg2)) (m ((c.tc : Thread nD τ).loc main_arg4)))
      (m ((c.tc : Thread nD τ).loc main_arg6)) (m ((c.tc : Thread nD τ).loc main_arg7)) (m ((c.tc : Thread nD τ).loc main_arg8)) (m ((c.tc : Thread nD τ).loc main_arg9)))
    (m ((c.tc : Thread nD τ).loc main_arg3)) (m ((c.tc : Thread nD τ).loc main_arg14)) (m ((c.tc : Thread nD τ).loc main_arg15)))

/-- The reference's result: the second round on the first round's output, averaged with x, rectified. -/
def res (m : (ℓ : Loc nD τ sig) → Buf (Elt F) ℓ) (c : Dev nD) : (⟨S100000x128, .f32⟩ : BufTy).Contents (Elt F) :=
  Stage.final (Stage.ln (Stage.mlp (Stage.pre (out1 m c) (m ((c.tc : Thread nD τ).loc main_arg1))
        (m ((c.tc : Thread nD τ).loc main_arg2)) (m ((c.tc : Thread nD τ).loc main_arg5)))
      (m ((c.tc : Thread nD τ).loc main_arg10)) (m ((c.tc : Thread nD τ).loc main_arg11)) (m ((c.tc : Thread nD τ).loc main_arg12)) (m ((c.tc : Thread nD τ).loc main_arg13)))
    (m ((c.tc : Thread nD τ).loc main_arg3)) (m ((c.tc : Thread nD τ).loc main_arg16)) (m ((c.tc : Thread nD τ).loc main_arg17)))
    (m ((c.tc : Thread nD τ).loc main_arg0))

set_option maxHeartbeats 4000000 in
/-- The run's result term is the composition of the stages. -/
theorem res_eq (m : (ℓ : Loc nD τ sig) → Buf (Elt F) ℓ) (c : Dev nD) : Value.res_main_v162 (F := F) m c = res m c := by
  unfold Value.res_main_v162 res out1 Stage.final Stage.ln Stage.mlp Stage.pre Stage.relu Stage.rows Stage.look Stage.idCol Stage.mean Stage.inv Stage.cnt Stage.perGraph Stage.agg Stage.msg Stage.srcCol Stage.src Stage.dst
  rfl

end Cert.ReferenceIdeal.Chain

end
-- ==== Proof.BridgeHost.lean ====
/-
  The host-side stages the two programs share are the same functions: both apply the same operations, in the same
  order, to their operands.
-/
import proofs.«400410_j4037269259025_1_alg».proof.Proof.StagesK
import proofs.«400410_j4037269259025_1_alg».proof.Proof.StagesR

noncomputable section

namespace Cert.Bridge

open Idealize.ShloMosaic

variable {F : FTy → Type} [FloatOps F]

/-- What the dense stage is applied to is the same function in both programs. -/
theorem pre_eq (x : (⟨Cert.KernelIdeal.S100000x128, .f32⟩ : BufTy).Contents (Elt F)) (ei : (⟨Cert.KernelIdeal.S2x1600000, .i32⟩ : BufTy).Contents (Elt F))
    (ea : (⟨Cert.KernelIdeal.S1600000x128, .f32⟩ : BufTy).Contents (Elt F)) (eps : (⟨Cert.KernelIdeal.S_, .f32⟩ : BufTy).Contents (Elt F)) :
    Cert.KernelIdeal.Stage.pre x ei ea eps = Cert.ReferenceIdeal.Stage.pre x ei ea eps := rfl

/-- The per-graph mean is the same function in both programs. -/
theorem mean_eq (g : (⟨Cert.KernelIdeal.S100000x128, .f32⟩ : BufTy).Contents (Elt F)) (n2g : (⟨Cert.KernelIdeal.S100000, .i32⟩ : BufTy).Contents (Elt F)) :
    Cert.KernelIdeal.Stage.mean g n2g = Cert.ReferenceIdeal.Stage.mean g n2g := rfl

/-- The per-graph reciprocal deviation is the same function in both programs. -/
theorem inv_eq (g : (⟨Cert.KernelIdeal.S100000x128, .f32⟩ : BufTy).Contents (Elt F)) (n2g : (⟨Cert.KernelIdeal.S100000, .i32⟩ : BufTy).Contents (Elt F)) :
    Cert.KernelIdeal.Stage.inv g n2g = Cert.ReferenceIdeal.Stage.inv g n2g := rfl

end Cert.Bridge

end
-- ==== Proof.BridgeMlp.lean ====
/-
  The dense stage written with two whole matrix products and broadcast biases is, entry by entry, the dense
  stage of the specification: a matrix product at an entry is the sum over the contracted coordinate, and a
  bias broadcast along the rows is the bias at the entry's column.
-/
import proofs.«400410_j4037269259025_1_alg».proof.Proof.StagesR
import proofs.«400410_j4037269259025_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Idealize.ShloMosaic Idealize.ShloMosaic.ValueIdx Cert.ReferenceIdeal Cert.ReferenceIdeal.Gen

/-! ## The operand coordinates of the matrix product

  The product contracts the second coordinate of its left operand with the first of its right operand. At output
  entry `i` and contraction index `q` the left operand is therefore read at (first coordinate of `i`, `q`) and the
  right operand at (`q`, second coordinate of `i`): four coordinate equations. -/

/-- The left operand's first coordinate is the entry's row. -/
theorem dotL_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- The left operand's second coordinate is the contraction index. -/
theorem dotL_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q

/-- The right operand's first coordinate is the contraction index. -/
theorem dotR_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q

/-- The right operand's second coordinate is the entry's column. -/
theorem dotR_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- A matrix product at entry (n, c) is ∑ₖ a[n,k] · B[k,c]: the sum over the one-axis contraction index is
    re-indexed by its single coordinate. -/
theorem dot_apply (a : (⟨S100000x128, .f32⟩ : BufTy).Contents (Elt Ideal)) (B : (⟨S128x128, .f32⟩ : BufTy).Contents (Elt Ideal))
    (n : Fin 100000) (c : Fin 128) :
    Host.dotGeneral (F := Ideal) (φ₁ := .f32) (φ₂ := .f32) dot_S100000x128_S128x128_S100000x128_1_0_0_1_n_n none a B (ix2 n c) = ∑ k : Fin 128, a (ix2 n k) * B (ix2 k c) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 n c) ((contrEquiv1 dot_S100000x128_S128x128_S100000x128_1_0_0_1_n_n 128 rfl rfl).symm k) = ix2 n k :=
    funext fun d => Fin.ext (by
      match d with
      | ⟨0, _⟩ => exact dotL_0 _ _
      | ⟨1, _⟩ => exact (dotL_1 _ _).trans hk)
  have er : dot_S100000x128_S128x128_S100000x128_1_0_0_1_n_n.rhsIdx (ix2 n c) ((contrEquiv1 dot_S100000x128_S128x128_S100000x128_1_0_0_1_n_n 128 rfl rfl).symm k) = ix2 k c :=
    funext fun d => Fin.ext (by
      match d with
      | ⟨0, _⟩ => exact (dotR_0 _ _).trans hk
      | ⟨1, _⟩ => exact dotR_1 _ _)
  rw [el, er]

/-! ## The bias broadcasts and relu at an entry -/

/-- A 128-vector repeated on every row reads, at entry (n, c), its c-th component: first along the unit axis of
    the 1×128 row, then along the rows. -/
theorem rows_apply (v : (⟨S128, .f32⟩ : BufTy).Contents (Elt Ideal)) (n : Fin 100000) (c : Fin 128) :
    Stage.rows (F := Ideal) v (ix2 n c) = v (ix1 c) := by
  unfold Stage.rows
  refine (broadcastInDim_apply _ bcast_S1x128_S100000x128_0_1 _ (ix2 n c) (ix2 (⟨0, Nat.one_pos⟩ : Fin 1) c)
    (fun d => match d with
      | ⟨0, _⟩ => by show 0 = if (1 : Nat) = 1 then 0 else n.val; rw [if_pos rfl]
      | ⟨1, _⟩ => by show c.val = if (128 : Nat) = 1 then 0 else c.val; rw [if_neg (by decide)])).trans ?_
  exact broadcastInDim_apply _ bcast_S128_S1x128_1 v _ (ix1 c)
    (fun d => match d with
      | ⟨0, _⟩ => by show c.val = if (128 : Nat) = 1 then 0 else c.val; rw [if_neg (by decide)])

/-- relu at an entry is the maximum with zero: the broadcast zero word is the extended real 0. -/
theorem relu_apply (a : (⟨S100000x128, .f32⟩ : BufTy).Contents (Elt Ideal)) (i : S100000x128.Idx) :
    Stage.relu (F := Ideal) a i = max (a i) 0 := by
  unfold Stage.relu
  rw [maximumf_apply, broadcastInDim_apply _ bcast_S_S100000x128 _ i ix0 (fun d => d.elim0), constant_apply,
    Ideal.ofBits_zero_f32]

/-! ## The dense stage -/

/-- The hidden layer of the reference at entry (n, k) is the specification's hidden unit. -/
theorem hidden_eq (h : (⟨S100000x128, .f32⟩ : BufTy).Contents (Elt Ideal)) (W1 : (⟨S128x128, .f32⟩ : BufTy).Contents (Elt Ideal))
    (b1 : (⟨S128, .f32⟩ : BufTy).Contents (Elt Ideal)) (n : Fin 100000) (k : Fin 128) :
    Stage.relu (F := Ideal) (addf (Host.dotGeneral (F := Ideal) (φ₁ := .f32) (φ₂ := .f32) dot_S100000x128_S128x128_S100000x128_1_0_0_1_n_n none h W1) (Stage.rows (F := Ideal) b1)) (ix2 n k)
      = Cert.Spec.hidden h W1 b1 n k := by
  rw [relu_apply, addf_apply, rows_apply, dot_apply]
  rfl

/-- The specification's dense stage is the reference's, on the extended reals. -/
theorem mlp_eq (h : (⟨S100000x128, .f32⟩ : BufTy).Contents (Elt Ideal)) (W1 : (⟨S128x128, .f32⟩ : BufTy).Contents (Elt Ideal))
    (b1 : (⟨S128, .f32⟩ : BufTy).Contents (Elt Ideal)) (W2 : (⟨S128x128, .f32⟩ : BufTy).Contents (Elt Ideal))
    (b2 : (⟨S128, .f32⟩ : BufTy).Contents (Elt Ideal)) :
    Cert.Spec.mlp h W1 b1 W2 b2 = Cert.ReferenceIdeal.Stage.mlp (F := Ideal) h W1 b1 W2 b2 := by
  funext i
  obtain ⟨n, cc, rfl⟩ : ∃ (n : Fin 100000) (cc : Fin 128), i = ix2 n cc := ⟨i 0, i 1, eq_ix2 i⟩
  show Cert.Spec.mlpAt h W1 b1 W2 b2 n cc = _
  unfold Stage.mlp Cert.Spec.mlpAt
  rw [addf_apply, rows_apply, dot_apply]
  refine congrArg (· + b2 (ix1 cc)) (Finset.sum_congr rfl fun k _ => ?_)
  rw [hidden_eq]

end Cert.Bridge

end
-- ==== Proof.Range.lean ====
/-
  The domain of the graph ids: every node's id, read as a signed word, names one of the 64 graphs.
-/
import Idealize.ShloMosaic.Lib.ValueIdx

namespace Cert.Spec

open Idealize.ShloMosaic Idealize.ShloMosaic.ValueIdx

/-- Every node's graph id, read as a signed word, is one of 0 … 63. -/
def InRange (n2g : IVec (⟨1, ![100000]⟩ : Shape) 32) : Prop :=
  ∀ n : Fin 100000, 0 ≤ (n2g (ix1 n)).toInt ∧ (n2g (ix1 n)).toInt < 64

end Cert.Spec
-- ==== Proof.BridgeLn.lean ====
/-
  The normalisation stage of the specification, fed the membership matrix and the table of statistics, is the
  reference's normalisation: when a node's graph id q₀ is one of the 64 graphs, its membership row is 1 at q₀ and 0
  elsewhere, so ∑_q oh[n,q] · tab[q,col] = tab[q₀,col] (a product with 0 is 0 and with 1 the factor, on all the
  extended reals), and the reference's lookup, which clamps the id into 0 … 63, reads the same entry.
-/
import proofs.«400410_j4037269259025_1_alg».proof.Proof.StagesK
import proofs.«400410_j4037269259025_1_alg».proof.Proof.StagesR
import proofs.«400410_j4037269259025_1_alg».proof.Proof.BridgeHost
import proofs.«400410_j4037269259025_1_alg».proof.Proof.Spec
import proofs.«400410_j4037269259025_1_alg».proof.Proof.Range
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.Bridge

open Idealize.ShloMosaic Idealize.ShloMosaic.ValueIdx Cert.ReferenceIdeal
open Idealize.ShloMosaic.StableHlo.Predicate (ij ixP)

/-! ## Indices: the two spellings of a coordinate index agree -/

theorem ij_eq_ix2 {n m : Nat} (p : Fin n) (q : Fin m) : ij p q = ix2 p q := by
  funext a; match a with | ⟨0, _⟩ => rfl | ⟨1, _⟩ => rfl

theorem ixP_eq_ix2 {n : Nat} (p : Fin n) : ixP p = ix2 p (0 : Fin 1) := by
  funext a; match a with | ⟨0, _⟩ => rfl | ⟨1, _⟩ => rfl

theorem ofFin_eq_ix1 {n : Nat} (p : Fin n) : Shape.Idx.ofFin p = ix1 p := by
  funext a; match a with | ⟨0, _⟩ => rfl

/-! ## Words -/

/-- A word whose signed value is in 0 … 63 is that natural number. -/
theorem toNat_of_range (w : BitVec 32) (h0 : 0 ≤ w.toInt) (h1 : w.toInt < 64) : w.toNat = w.toInt.toNat ∧ w.toInt.toNat < 64 := by
  rw [BitVec.toInt_eq_toNat_cond] at h0 h1 ⊢
  have := w.isLt
  split at h0 <;> split <;> omega

/-- The membership bit as an extended real: 1 when the words agree, else 0. -/
theorem uitofp_cmpi_eq (x y : BitVec 32) :
    (FloatOps.uitofp (F := Ideal) .f32 (IntOp.cmpi .eq x y) : EReal) = if x = y then 1 else 0 := by
  show (((IntOp.cmpi .eq x y).toNat : ℝ) : EReal) = _
  by_cases h : x = y
  · subst h; simp [IntOp.cmpi]
  · rw [if_neg h]; simp [IntOp.cmpi, h]

/-! ## The membership matrix at an entry -/

/-- The graph number a word in 0 … 63 names. -/
def gid (w : BitVec 32) (h0 : 0 ≤ w.toInt) (h1 : w.toInt < 64) : Fin 64 := ⟨w.toInt.toNat, by omega⟩

/-- A word in 0 … 63 equals the word of q exactly when q is the graph it names. -/
theorem eq_ofNat_iff (w : BitVec 32) (h0 : 0 ≤ w.toInt) (h1 : w.toInt < 64) (q : Fin 64) :
    w = BitVec.ofNat 32 q.val ↔ q = gid w h0 h1 := by
  obtain ⟨hn, hlt⟩ := toNat_of_range w h0 h1
  have hq := q.isLt
  constructor
  · intro h
    apply Fin.ext
    show q.val = w.toInt.toNat
    rw [← hn, h, BitVec.toNat_ofNat]
    omega
  · intro h
    apply BitVec.eq_of_toNat_eq
    rw [BitVec.toNat_ofNat, hn, h]
    show w.toInt.toNat = w.toInt.toNat % 2 ^ 32
    omega

/-- Entry (n, q) of the membership matrix: 1 when node n's id is the word of q, else 0. -/
theorem onehot_apply (n2g : (⟨S100000, .i32⟩ : BufTy).Contents (Elt Ideal)) (n : Fin 100000) (q : Fin 64) :
    Cert.KernelIdeal.Stage.onehot (F := Ideal) n2g (ix2 n q)
      = if n2g (ix1 n) = BitVec.ofNat 32 q.val then 1 else 0 := by
  unfold Cert.KernelIdeal.Stage.onehot
  show (FloatOps.uitofp (F := Ideal) .f32 (IntOp.cmpi .eq _ _) : EReal) = _
  rw [uitofp_cmpi_eq, ← ij_eq_ix2, StableHlo.Predicate.bcast_rows, StableHlo.Predicate.bcast_cols, ofFin_eq_ix1, ofFin_eq_ix1]
  rfl

/-! ## The table of statistics at an entry -/

/-- Column 0 of two columns laid side by side is the first. -/
theorem cols_left {α : Type} (h₁ : Cert.KernelIdeal.S64.BroadcastsInDim Cert.KernelIdeal.S64x1 ![0])
    (hc : Shape.Concatenates [Cert.KernelIdeal.S64x1, Cert.KernelIdeal.S64x1] Cert.KernelIdeal.S64x2 1)
    (a b : Cert.KernelIdeal.S64.Idx → α) (q : Fin 64) :
    concatenate Cert.KernelIdeal.S64x2 1 [⟨Cert.KernelIdeal.S64x1, broadcastInDim Cert.KernelIdeal.S64x1 ![0] h₁ a⟩,
      ⟨Cert.KernelIdeal.S64x1, broadcastInDim Cert.KernelIdeal.S64x1 ![0] h₁ b⟩] hc (ix2 q (0 : Fin 2)) = a (ix1 q) := by
  rw [concatenate_pair_apply_left (s₁ := Cert.KernelIdeal.S64x1) (s₂ := Cert.KernelIdeal.S64x1) (1 : Fin 2) _ _ hc (ix2 q (0 : Fin 2)) rfl (ix2 q (0 : Fin 1))
    (fun b => by match b with | ⟨0, _⟩ => rfl | ⟨1, _⟩ => rfl)]
  rw [← ixP_eq_ix2, StableHlo.Predicate.bcast_col1, ofFin_eq_ix1]

/-- Column 1 of two columns laid side by side is the second. -/
theorem cols_right {α : Type} (h₁ : Cert.KernelIdeal.S64.BroadcastsInDim Cert.KernelIdeal.S64x1 ![0])
    (hc : Shape.Concatenates [Cert.KernelIdeal.S64x1, Cert.KernelIdeal.S64x1] Cert.KernelIdeal.S64x2 1)
    (a b : Cert.KernelIdeal.S64.Idx → α) (q : Fin 64) :
    concatenate Cert.KernelIdeal.S64x2 1 [⟨Cert.KernelIdeal.S64x1, broadcastInDim Cert.KernelIdeal.S64x1 ![0] h₁ a⟩,
      ⟨Cert.KernelIdeal.S64x1, broadcastInDim Cert.KernelIdeal.S64x1 ![0] h₁ b⟩] hc (ix2 q (1 : Fin 2)) = b (ix1 q) := by
  rw [concatenate_pair_apply_right (s₁ := Cert.KernelIdeal.S64x1) (s₂ := Cert.KernelIdeal.S64x1) (1 : Fin 2) _ _ hc (ix2 q (1 : Fin 2)) rfl rfl (ix2 q (0 : Fin 1))
    (fun b hb => by match b, hb with | ⟨0, _⟩, _ => rfl | ⟨1, _⟩, hb => exact absurd rfl hb) rfl]
  rw [← ixP_eq_ix2, StableHlo.Predicate.bcast_col1, ofFin_eq_ix1]

/-! ## The lookup through a membership row -/

/-- A row that is 1 at q₀ and 0 elsewhere picks entry q₀ of the column: a product with 0 is 0 and with 1 the factor,
    on all the extended reals. -/
theorem pick_of_row (oh : Cert.Spec.Hot.Idx → EReal) (tab : Cert.Spec.Tab.Idx → EReal) (col : Fin 2) (n : Fin 100000)
    (q₀ : Fin 64) (h : ∀ q : Fin 64, oh (ix2 n q) = if q = q₀ then 1 else 0) :
    Cert.Spec.pick oh tab col n = tab (ix2 q₀ col) := by
  unfold Cert.Spec.pick
  rw [Finset.sum_eq_single q₀]
  · rw [h, if_pos rfl, one_mul]
  · intro b _ hb; rw [h, if_neg hb, zero_mul]
  · intro hq; exact absurd (Finset.mem_univ _) hq

/-! ## The reference's lookup at an entry -/

/-- The start index of node n: the node's id itself when its signed value is not negative. -/
theorem idCol_apply (n2g : (⟨S100000, .i32⟩ : BufTy).Contents (Elt Ideal)) (n : Fin 100000) (h0 : 0 ≤ (n2g (ix1 n)).toInt) :
    Cert.ReferenceIdeal.Stage.idCol (F := Ideal) n2g (ixP n) = n2g (ix1 n) := by
  unfold Cert.ReferenceIdeal.Stage.idCol
  rw [StableHlo.Predicate.bcast_col1, ofFin_eq_ix1]
  show Scalar.select (IntOp.cmpi .slt (n2g (ix1 n)) 0#32) _ (n2g (ix1 n)) = n2g (ix1 n)
  have hlt : IntOp.cmpi .slt (n2g (ix1 n)) 0#32 = 0#1 := by
    show BitVec.ofBool ((n2g (ix1 n)).slt 0#32) = 0#1
    rw [BitVec.slt_eq_decide, BitVec.toInt_zero, decide_eq_false (by omega)]
    rfl
  rw [hlt, select_zero]

/-- The lookup reads the statistic of the node's graph on the whole of the node's row. -/
theorem look_apply (v : (⟨S64, .f32⟩ : BufTy).Contents (Elt Ideal)) (n2g : (⟨S100000, .i32⟩ : BufTy).Contents (Elt Ideal))
    (n : Fin 100000) (c : Fin 128) (h0 : 0 ≤ (n2g (ix1 n)).toInt) (h1 : (n2g (ix1 n)).toInt < 64) :
    Cert.ReferenceIdeal.Stage.look (F := Ideal) v n2g (ix2 n c) = v (ix1 (gid (n2g (ix1 n)) h0 h1)) := by
  unfold Cert.ReferenceIdeal.Stage.look
  rw [← ij_eq_ix2, StableHlo.Predicate.bcast_rows,
    StableHlo.Predicate.gather_take _ rfl rfl rfl rfl v _ n (by decide), ofFin_eq_ix1]
  have key : ∀ (z : BitVec 32) (hz : z = n2g (ix1 n)) (pf : min z.toInt.toNat (64 - 1) < 64),
      (⟨min z.toInt.toNat (64 - 1), pf⟩ : Fin 64) = gid (n2g (ix1 n)) h0 h1 := by
    intro z hz pf; subst hz; apply Fin.ext; show min _ _ = (n2g (ix1 n)).toInt.toNat; omega
  rw [key _ (idCol_apply n2g n h0)]

/-- A 128-vector repeated on every row reads, at (n, c), its entry c. -/
theorem rows_apply (v : (⟨S128, .f32⟩ : BufTy).Contents (Elt Ideal)) (n : Fin 100000) (c : Fin 128) :
    Cert.ReferenceIdeal.Stage.rows (F := Ideal) v (ix2 n c) = v (ix1 c) := by
  unfold Cert.ReferenceIdeal.Stage.rows
  rw [← ij_eq_ix2, StableHlo.Predicate.bcast_cols, ofFin_eq_ix1]

/-! ## One entry of the normalisation, on either side -/

/-- The specification's normalised entry, the two statistics being any two vectors laid side by side as the table:
    the membership row of node n picks the entries of n's graph. -/
theorem lnAt_table (g : (⟨S100000x128, .f32⟩ : BufTy).Contents (Elt Ideal)) (n2g : (⟨S100000, .i32⟩ : BufTy).Contents (Elt Ideal))
    (γ β : (⟨S128, .f32⟩ : BufTy).Contents (Elt Ideal)) (M V : (⟨S64, .f32⟩ : BufTy).Contents (Elt Ideal))
    (h₁ : Cert.KernelIdeal.S64.BroadcastsInDim Cert.KernelIdeal.S64x1 ![0])
    (hc : Shape.Concatenates [Cert.KernelIdeal.S64x1, Cert.KernelIdeal.S64x1] Cert.KernelIdeal.S64x2 1)
    (n : Fin 100000) (c : Fin 128) (h0 : 0 ≤ (n2g (ix1 n)).toInt) (h1 : (n2g (ix1 n)).toInt < 64) :
    Cert.Spec.lnAt g (Cert.KernelIdeal.Stage.onehot (F := Ideal) n2g)
        (concatenate Cert.KernelIdeal.S64x2 1 [⟨Cert.KernelIdeal.S64x1, broadcastInDim Cert.KernelIdeal.S64x1 ![0] h₁ M⟩,
          ⟨Cert.KernelIdeal.S64x1, broadcastInDim Cert.KernelIdeal.S64x1 ![0] h₁ V⟩] hc) γ β n c
      = (g (ix2 n c) - M (ix1 (gid (n2g (ix1 n)) h0 h1))) * V (ix1 (gid (n2g (ix1 n)) h0 h1)) * γ (ix1 c) + β (ix1 c) := by
  have hrow : ∀ q : Fin 64, Cert.KernelIdeal.Stage.onehot (F := Ideal) n2g (ix2 n q)
      = if q = gid (n2g (ix1 n)) h0 h1 then 1 else 0 := fun q => by
    rw [onehot_apply]; exact if_congr (eq_ofNat_iff _ h0 h1 q) rfl rfl
  unfold Cert.Spec.lnAt
  rw [pick_of_row _ _ 0 n _ hrow, pick_of_row _ _ 1 n _ hrow, cols_left, cols_right]

/-- The reference's normalised entry, the two statistics being any two vectors. -/
theorem ln_entry (g : (⟨S100000x128, .f32⟩ : BufTy).Contents (Elt Ideal)) (n2g : (⟨S100000, .i32⟩ : BufTy).Contents (Elt Ideal))
    (γ β : (⟨S128, .f32⟩ : BufTy).Contents (Elt Ideal)) (M V : (⟨S64, .f32⟩ : BufTy).Contents (Elt Ideal))
    (n : Fin 100000) (c : Fin 128) (h0 : 0 ≤ (n2g (ix1 n)).toInt) (h1 : (n2g (ix1 n)).toInt < 64) :
    addf (F := Ideal) (s := S100000x128) (φ := .f32) (mulf (mulf (subf g (Cert.ReferenceIdeal.Stage.look (F := Ideal) M n2g))
        (Cert.ReferenceIdeal.Stage.look (F := Ideal) V n2g)) (Cert.ReferenceIdeal.Stage.rows (F := Ideal) γ))
        (Cert.ReferenceIdeal.Stage.rows (F := Ideal) β) (ix2 n c)
      = (g (ix2 n c) - M (ix1 (gid (n2g (ix1 n)) h0 h1))) * V (ix1 (gid (n2g (ix1 n)) h0 h1)) * γ (ix1 c) + β (ix1 c) := by
  rw [addf_apply, mulf_apply, mulf_apply, subf_apply, look_apply M n2g n c h0 h1, look_apply V n2g n c h0 h1,
    rows_apply, rows_apply]

/-- A splat of a word, broadcast to the node array, reads the extended real the word encodes. -/
theorem splat_apply (h : S_.BroadcastsInDim S100000x128 ![]) (b : BitVec 32) (i : S100000x128.Idx) :
    broadcastInDim S100000x128 ![] h (constant (F := Ideal) S_ .f32 b) i = Ideal.ofBits .f32 b := rfl

/-! ## The two stages -/

/-- Normalisation then relu: the specification's, fed the membership matrix and the table, is the reference's. -/
theorem lnRelu_eq (g : (⟨S100000x128, .f32⟩ : BufTy).Contents (Elt Ideal)) (n2g : (⟨S100000, .i32⟩ : BufTy).Contents (Elt Ideal))
    (γ β : (⟨S128, .f32⟩ : BufTy).Contents (Elt Ideal)) (hr : Cert.Spec.InRange n2g) :
    Cert.Spec.lnRelu g (Cert.KernelIdeal.Stage.onehot (F := Ideal) n2g) (Cert.KernelIdeal.Stage.table (F := Ideal) g n2g) γ β
      = Cert.ReferenceIdeal.Stage.relu (F := Ideal) (Cert.ReferenceIdeal.Stage.ln (F := Ideal) g n2g γ β) := by
  funext i
  obtain ⟨n, c, rfl⟩ : ∃ (n : Fin 100000) (c : Fin 128), i = ix2 n c := ⟨i 0, i 1, eq_ix2 i⟩
  unfold Cert.Spec.lnRelu Cert.ReferenceIdeal.Stage.relu Cert.KernelIdeal.Stage.table Cert.ReferenceIdeal.Stage.ln
  rw [Cert.Bridge.mean_eq, Cert.Bridge.inv_eq]
  generalize Cert.ReferenceIdeal.Stage.mean g n2g = M
  generalize Cert.ReferenceIdeal.Stage.inv g n2g = V
  show max (Cert.Spec.lnAt g _ _ γ β n c) 0 = _
  rw [maximumf_apply, lnAt_table g n2g γ β M V _ _ n c (hr n).1 (hr n).2, ln_entry g n2g γ β M V n c (hr n).1 (hr n).2,
    splat_apply, Ideal.ofBits_zero_f32]

/-- Normalisation, residual average, relu: the specification's is the reference's last stage. -/
theorem lnResRelu_eq (g : (⟨S100000x128, .f32⟩ : BufTy).Contents (Elt Ideal)) (n2g : (⟨S100000, .i32⟩ : BufTy).Contents (Elt Ideal))
    (γ β : (⟨S128, .f32⟩ : BufTy).Contents (Elt Ideal)) (x : (⟨S100000x128, .f32⟩ : BufTy).Contents (Elt Ideal)) (hr : Cert.Spec.InRange n2g) :
    Cert.Spec.lnResRelu g (Cert.KernelIdeal.Stage.onehot (F := Ideal) n2g) (Cert.KernelIdeal.Stage.table (F := Ideal) g n2g) γ β x
      = Cert.ReferenceIdeal.Stage.final (F := Ideal) (Cert.ReferenceIdeal.Stage.ln (F := Ideal) g n2g γ β) x := by
  funext i
  obtain ⟨n, c, rfl⟩ : ∃ (n : Fin 100000) (c : Fin 128), i = ix2 n c := ⟨i 0, i 1, eq_ix2 i⟩
  unfold Cert.Spec.lnResRelu Cert.ReferenceIdeal.Stage.final Cert.ReferenceIdeal.Stage.relu Cert.KernelIdeal.Stage.table
    Cert.ReferenceIdeal.Stage.ln
  rw [Cert.Bridge.mean_eq, Cert.Bridge.inv_eq]
  generalize Cert.ReferenceIdeal.Stage.mean g n2g = M
  generalize Cert.ReferenceIdeal.Stage.inv g n2g = V
  show max ((Cert.Spec.lnAt g _ _ γ β n c + x (ix2 n c)) * Ideal.ofBits .f32 0x3F000000#32) 0 = _
  rw [maximumf_apply, mulf_apply, addf_apply, lnAt_table g n2g γ β M V _ _ n c (hr n).1 (hr n).2,
    ln_entry g n2g γ β M V n c (hr n).1 (hr n).2, splat_apply, splat_apply, Ideal.ofBits_zero_f32]

end Cert.Bridge

end
-- ==== Proof.PreDecode.lean ====
/-
  The precondition's last two conjuncts say that every graph id is at least 0 and below 64, as signed words.
-/
import proofs.«400410_j4037269259025_1_alg».proof.Defs
import proofs.«400410_j4037269259025_1_alg».proof.Proof.Gen.Pre_finite_inputs
import proofs.«400410_j4037269259025_1_alg».proof.Proof.Gen.KernelIdeal
import proofs.«400410_j4037269259025_1_alg».proof.Proof.Range
import Idealize.ShloMosaic.Lib.StableHlo.Predicate
import Idealize.ShloMosaic.Lib.ReduceAll
import Idealize.ShloMosaic.Lib.ValueIdx

noncomputable section

namespace Cert.PreDecode

open Idealize.ShloMosaic Idealize.ShloMosaic.ValueIdx Idealize.SL.Sem
open Cert.Pre_finite_inputs

/-- The scalar shape has one index. -/
instance subsingleton_scalar_idx : Subsingleton S_.Idx := ⟨fun a b => funext fun d => d.elim0⟩

/-- The elementwise "and" of two one-bit scalars is 1 exactly when both are. -/
theorem andi_scalar_eq_one {a b : IVec S_ 1} (h : andi a b ix0 = 1#1) : a ix0 = 1#1 ∧ b ix0 = 1#1 :=
  IntOp.andi_eq_one.1 h

/-- An all-reduction of "id ≥ 0" that came out 1 says every id is nonnegative as a signed word. -/
theorem ge_zero_of_all (n2g : IVec S100000 32)
    (e : Host.reduce IntOp.andi
        (cmpi .sge n2g (broadcastInDim S100000 ![] Facts.bcast_S_S100000 (constantI S_ 32 0#32)))
        (constantI S_ 1 1#1) Facts.reducesTo_S100000_S_d0 Facts.h_S_ ix0 = 1#1)
    (n : Fin 100000) : 0 ≤ (n2g (ix1 n)).toInt := by
  have hb : IntOp.cmpi .sge (n2g (ix1 n)) 0#32 = 1#1 :=
    Host.reduce_andi_all _ _ Facts.reducesTo_S100000_S_d0 Facts.h_S_ ix0 e (ix1 n)
  have := IntOp.cmpi_sge.1 hb
  simpa using this

/-- An all-reduction of "id < 64" that came out 1 says every id is below 64 as a signed word. -/
theorem lt_64_of_all (n2g : IVec S100000 32)
    (e : Host.reduce IntOp.andi
        (cmpi .slt n2g (broadcastInDim S100000 ![] Facts.bcast_S_S100000 (constantI S_ 32 64#32)))
        (constantI S_ 1 1#1) Facts.reducesTo_S100000_S_d0 Facts.h_S_ ix0 = 1#1)
    (n : Fin 100000) : (n2g (ix1 n)).toInt < 64 := by
  have hb : IntOp.cmpi .slt (n2g (ix1 n)) 64#32 = 1#1 :=
    Host.reduce_andi_all _ _ Facts.reducesTo_S100000_S_d0 Facts.h_S_ ix0 e (ix1 n)
  have := IntOp.cmpi_slt.1 hb
  have h64 : (64#32 : BitVec 32).toInt = 64 := by decide
  rw [h64] at this
  exact this

/-- The last part of the chain: its two last conjuncts bound the graph ids. -/
theorem part4_inRange {F : FTy → Type} [FloatOps F] (main_arg3 : IVec S100000 32) (main_arg17 : FVec F S128 .f32)
    (main_v66 : IVec S_ 1) (main_v67 : FVec F S128 .f32)
    (h : fn_part4 (F := F) main_arg3 main_arg17 main_v66 main_v67 ix0 = 1#1) : Cert.Spec.InRange main_arg3 := by
  unfold fn_part4 fn_part5 at h
  dsimp only at h
  obtain ⟨h80, h83⟩ := andi_scalar_eq_one h
  obtain ⟨_, h79⟩ := andi_scalar_eq_one h80
  exact fun n => ⟨ge_zero_of_all main_arg3 h79 n, lt_64_of_all main_arg3 h83 n⟩

theorem part3_inRange {F : FTy → Type} [FloatOps F] (main_arg3 : IVec S100000 32) (main_arg13 main_arg14 main_arg15 main_arg16 main_arg17 : FVec F S128 .f32)
    (main_v46 : IVec S_ 1) (main_v49 : IVec S128x128 1) (main_c_19 : IVec S_ 1)
    (h : fn_part3 (F := F) main_arg3 main_arg13 main_arg14 main_arg15 main_arg16 main_arg17 main_v46 main_v49 main_c_19 ix0 = 1#1) :
    Cert.Spec.InRange main_arg3 := by
  unfold fn_part3 at h
  exact part4_inRange _ _ _ _ h

theorem part2_inRange {F : FTy → Type} [FloatOps F] (main_arg3 : IVec S100000 32) (main_arg10 : FVec F S128x128 .f32) (main_arg11 : FVec F S128 .f32)
    (main_arg12 : FVec F S128x128 .f32) (main_arg13 main_arg14 main_arg15 main_arg16 main_arg17 : FVec F S128 .f32)
    (main_v31 : IVec S_ 1) (main_v32 : FVec F S128 .f32) (main_cst_12 : FVec F S_ .f32)
    (h : fn_part2 (F := F) main_arg3 main_arg10 main_arg11 main_arg12 main_arg13 main_arg14 main_arg15 main_arg16 main_arg17 main_v31 main_v32 main_cst_12 ix0 = 1#1) :
    Cert.Spec.InRange main_arg3 := by
  unfold fn_part2 at h
  exact part3_inRange _ _ _ _ _ _ _ _ _ h

theorem part1_inRange {F : FTy → Type} [FloatOps F] (main_arg3 : IVec S100000 32) (main_arg6 : FVec F S128x128 .f32) (main_arg7 : FVec F S128 .f32)
    (main_arg8 : FVec F S128x128 .f32) (main_arg9 : FVec F S128 .f32) (main_arg10 : FVec F S128x128 .f32) (main_arg11 : FVec F S128 .f32)
    (main_arg12 : FVec F S128x128 .f32) (main_arg13 main_arg14 main_arg15 main_arg16 main_arg17 : FVec F S128 .f32)
    (main_v12 main_v15 : IVec S_ 1)
    (h : fn_part1 (F := F) main_arg3 main_arg6 main_arg7 main_arg8 main_arg9 main_arg10 main_arg11 main_arg12 main_arg13 main_arg14 main_arg15 main_arg16 main_arg17 main_v12 main_v15 ix0 = 1#1) :
    Cert.Spec.InRange main_arg3 := by
  unfold fn_part1 at h
  exact part2_inRange _ _ _ _ _ _ _ _ _ _ _ _ h

/-- Under the precondition every node's graph id is one of the 64 graphs. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (m ((c.tc : Thread Cert.KernelIdeal.nD Cert.KernelIdeal.τ).loc Cert.KernelIdeal.main_arg3)) := by
  have e := congrFun (h c) ix0
  unfold Cert.Pre_finite_inputs.fn at e
  exact part1_inRange _ _ _ _ _ _ _ _ _ _ _ _ _ _ _ e

end Cert.PreDecode

end
-- ==== Proof.lean ====
/-
  The kernel program and the reference compute the same array on the extended reals when every graph id names one
  of the 64 graphs. Both pass messages along the edges with the same host operations; the kernel's dense regions
  compute, block of rows by block of rows, the two-layer stage the reference computes with two whole matrix
  products (a format change is the identity on the extended reals, and a matrix product at an entry is the sum over
  the contracted coordinate in both); the kernel's normalisation regions look a node's mean and reciprocal deviation
  up as ∑_q membership[n,q] · table[q,·], which is the table's row at the node's graph id because the membership row
  is 1 there and 0 elsewhere (0 · x = 0 for every extended real x), and that row is what the reference's lookup reads.
  The three frames are the generated ones; the idealization rewrote nothing.
-/
import proofs.«400410_j4037269259025_1_alg».proof.Defs
import proofs.«400410_j4037269259025_1_alg».proof.Proof.Gen.Kernel
import proofs.«400410_j4037269259025_1_alg».proof.Proof.Gen.Kernel.Frame
import proofs.«400410_j4037269259025_1_alg».proof.Proof.Gen.KernelIdeal
import proofs.«400410_j4037269259025_1_alg».proof.Proof.Gen.KernelIdeal.Frame
import proofs.«400410_j4037269259025_1_alg».proof.Proof.Gen.ReferenceIdeal
import proofs.«400410_j4037269259025_1_alg».proof.Proof.Gen.ReferenceIdeal.Run
import proofs.«400410_j4037269259025_1_alg».proof.Proof.Gen.ReferenceIdeal.Read
import proofs.«400410_j4037269259025_1_alg».proof.Proof.Gen.Pre_finite_inputs
import proofs.«400410_j4037269259025_1_alg».proof.Proof.KRun
import proofs.«400410_j4037269259025_1_alg».proof.Proof.KChainB
import proofs.«400410_j4037269259025_1_alg».proof.Proof.RChain
import proofs.«400410_j4037269259025_1_alg».proof.Proof.BridgeHost
import proofs.«400410_j4037269259025_1_alg».proof.Proof.BridgeMlp
import proofs.«400410_j4037269259025_1_alg».proof.Proof.BridgeLn
import proofs.«400410_j4037269259025_1_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From arguments that agree, with every graph id one of the 64 graphs, the kernel program's result is the
    reference's: stage by stage, the shared host operations are the same functions, the dense stages agree, and the
    normalisation through the membership matrix is the reference's lookup. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Chain.res (F := Ideal) m' c = Cert.KernelIdeal.Chain.res m c := by
  have hr := Cert.PreDecode.inRange_of_pre m hpre c
  -- the first dense stage
  have e1 : Cert.KernelIdeal.Chain.g1 m c
      = Cert.ReferenceIdeal.Stage.mlp (F := Ideal)
          (Cert.ReferenceIdeal.Stage.pre (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg4)))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) := by
    unfold Cert.KernelIdeal.Chain.g1 Cert.KernelIdeal.Chain.h1
    rw [Cert.Bridge.pre_eq]
    exact Cert.Bridge.mlp_eq _ _ _ _ _
  -- the first normalisation stage
  have e2 : Cert.KernelIdeal.Chain.o1 m c
      = Cert.ReferenceIdeal.Stage.relu (F := Ideal) (Cert.ReferenceIdeal.Stage.ln (F := Ideal) (Cert.KernelIdeal.Chain.g1 m c)
          (m ((c.tc : Thread Cert.KernelIdeal.nD Cert.KernelIdeal.τ).loc Cert.KernelIdeal.main_arg3))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))) := by
    unfold Cert.KernelIdeal.Chain.o1 Cert.KernelIdeal.Chain.oh Cert.KernelIdeal.Chain.t1
    exact Cert.Bridge.lnRelu_eq _ _ _ _ hr
  -- the second dense stage
  have e3 : Cert.KernelIdeal.Chain.g2 m c
      = Cert.ReferenceIdeal.Stage.mlp (F := Ideal)
          (Cert.ReferenceIdeal.Stage.pre (F := Ideal) (Cert.KernelIdeal.Chain.o1 m c)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg5)))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13)) := by
    unfold Cert.KernelIdeal.Chain.g2 Cert.KernelIdeal.Chain.h2
    rw [Cert.Bridge.pre_eq]
    exact Cert.Bridge.mlp_eq _ _ _ _ _
  -- the last stage
  have e4 : Cert.KernelIdeal.Chain.res m c
      = Cert.ReferenceIdeal.Stage.final (F := Ideal) (Cert.ReferenceIdeal.Stage.ln (F := Ideal) (Cert.KernelIdeal.Chain.g2 m c)
          (m ((c.tc : Thread Cert.KernelIdeal.nD Cert.KernelIdeal.τ).loc Cert.KernelIdeal.main_arg3))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17)))
          (m ((c.tc : Thread Cert.KernelIdeal.nD Cert.KernelIdeal.τ).loc Cert.KernelIdeal.main_arg0)) := by
    unfold Cert.KernelIdeal.Chain.res Cert.KernelIdeal.Chain.oh Cert.KernelIdeal.Chain.t2
    exact Cert.Bridge.lnResRelu_eq _ _ _ _ _ hr
  rw [e4, e3, e2, e1]
  unfold Cert.ReferenceIdeal.Chain.res Cert.ReferenceIdeal.Chain.out1
  rw [h0, h1, h2, h3, h4, h5, h6, h7, h8, h9, h10, h11, h12, h13, h14, h15, h16, h17]

/-- On the extended reals both programs run and end with equal results: the kernel program's run leaves its
    result buffer at the composition of its stages, the reference's run at the composition of its own, and the two
    compositions are one function of arguments that agree. -/
theorem algebraic : Cert.algebraic_KernelIdeal_ReferenceIdeal := by
  intro m ρ m' ρ' hpre hagree
  refine ⟨fun c => Cert.KernelIdeal.Chain.res m c, ?_, ?_⟩
  · exact (θ_run Cert.KernelIdeal.defs _ _).mono
      (fun r h c => ⟨(h c).1.trans (Cert.KernelIdeal.Chain.W12_v100 m ρ c), (h c).2⟩)
      (Cert.KernelIdeal.GenV.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Chain.res_eq]
    obtain ⟨h0, h1, h2, h3, h4, h5, h6, h7, h8, h9, h10, h11, h12, h13, h14, h15, h16, h17⟩ := hagree c
    exact result_eq m m' hpre c h0 h1 h2 h3 h4 h5 h6 h7 h8 h9 h10 h11 h12 h13 h14 h15 h16 h17

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
